-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v16)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v16) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v28) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩

class Facts : Prop where
  bcast_S_S100000x128 : S_.BroadcastsInDim S100000x128 (![] : Fin 0 → Fin S100000x128.rank)
  reducesTo_S100000x128_S_d0_1 : S100000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S128x1 : S_.BroadcastsInDim S128x1 (![] : Fin 0 → Fin S128x1.rank)
  reducesTo_S128x1_S_d0_1 : S128x1.ReducesTo [0, 1] S_
  bcast_S_S1 : S_.BroadcastsInDim S1 (![] : Fin 0 → Fin S1.rank)
  reducesTo_S1_S_d0 : S1.ReducesTo [0] S_
  bcast_S_S640000 : S_.BroadcastsInDim S640000 (![] : Fin 0 → Fin S640000.rank)
  reducesTo_S640000_S_d0 : S640000.ReducesTo [0] S_

variable [Facts]

def fn_part2 {F : FTy → Type} [FloatOps F] (main_arg1 : IVec S640000 32) (main_arg2 : IVec S640000 32) (main_v33 : IVec S_ 1) : IVec S_ 1 :=
  let main_c_12 : IVec S_ 32 := constantI S_ 32 0#32
  let main_v34 : IVec S640000 32 := broadcastInDim S640000 ![] bcast_S_S640000 main_c_12
  let main_v35 : IVec S640000 1 := cmpi .sge main_arg1 main_v34
  let main_c_13 : IVec S_ 1 := constantI S_ 1 1#1
  let main_v36 : IVec S_ 1 := (fun x v => Host.reduce IntOp.andi x v reducesTo_S640000_S_d0 h_S_) main_v35 main_c_13
  let main_v37 : IVec S_ 1 := andi main_v33 main_v36
  let main_c_14 : IVec S_ 32 := constantI S_ 32 100000#32
  let main_v38 : IVec S640000 32 := broadcastInDim S640000 ![] bcast_S_S640000 main_c_14
  let main_v39 : IVec S640000 1 := cmpi .slt main_arg1 main_v38
  let main_c_15 : IVec S_ 1 := constantI S_ 1 1#1
  let main_v40 : IVec S_ 1 := (fun x v => Host.reduce IntOp.andi x v reducesTo_S640000_S_d0 h_S_) main_v39 main_c_15
  let main_v41 : IVec S_ 1 := andi main_v37 main_v40
  let main_c_16 : IVec S_ 32 := constantI S_ 32 0#32
  let main_v42 : IVec S640000 32 := broadcastInDim S640000 ![] bcast_S_S640000 main_c_16
  let main_v43 : IVec S640000 1 := cmpi .sge main_arg2 main_v42
  let main_c_17 : IVec S_ 1 := constantI S_ 1 1#1
  let main_v44 : IVec S_ 1 := (fun x v => Host.reduce IntOp.andi x v reducesTo_S640000_S_d0 h_S_) main_v43 main_c_17
  let main_v45 : IVec S_ 1 := andi main_v41 main_v44
  let main_c_18 : IVec S_ 32 := constantI S_ 32 100000#32
  let main_v46 : IVec S640000 32 := broadcastInDim S640000 ![] bcast_S_S640000 main_c_18
  let main_v47 : IVec S640000 1 := cmpi .slt main_arg2 main_v46
  let main_c_19 : IVec S_ 1 := constantI S_ 1 1#1
  let main_v48 : IVec S_ 1 := (fun x v => Host.reduce IntOp.andi x v reducesTo_S640000_S_d0 h_S_) main_v47 main_c_19
  let main_v49 : IVec S_ 1 := andi main_v45 main_v48
  main_v49

def fn_part1 {F : FTy → Type} [FloatOps F] (main_arg1 : IVec S640000 32) (main_arg2 : IVec S640000 32) (main_arg6 : FVec F S128 .f32) (main_arg7 : FVec F S128x1 .f32) (main_arg8 : FVec F S1 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128 .f32 := Host.absf main_arg6
  let main_cst_6 : FVec F S_ .f32 := constant S_ .f32 0x7F800000#32
  let main_v20 : FVec F S128 .f32 := broadcastInDim S128 ![] bcast_S_S128 main_cst_6
  let main_v21 : IVec S128 1 := cmpf .olt main_v19 main_v20
  let main_c_7 : IVec S_ 1 := constantI S_ 1 1#1
  let main_v22 : IVec S_ 1 := (fun x v => Host.reduce IntOp.andi x v reducesTo_S128_S_d0 h_S_) main_v21 main_c_7
  let main_v23 : IVec S_ 1 := andi main_v18 main_v22
  let main_v24 : FVec F S128x1 .f32 := Host.absf main_arg7
  let main_cst_8 : FVec F S_ .f32 := constant S_ .f32 0x7F800000#32
  let main_v25 : FVec F S128x1 .f32 := broadcastInDim S128x1 ![] bcast_S_S128x1 main_cst_8
  let main_v26 : IVec S128x1 1 := cmpf .olt main_v24 main_v25
  let main_c_9 : IVec S_ 1 := constantI S_ 1 1#1
  let main_v27 : IVec S_ 1 := (fun x v => Host.reduce IntOp.andi x v reducesTo_S128x1_S_d0_1 h_S_) main_v26 main_c_9
  let main_v28 : IVec S_ 1 := andi main_v23 main_v27
  let main_v29 : FVec F S1 .f32 := Host.absf main_arg8
  let main_cst_10 : FVec F S_ .f32 := constant S_ .f32 0x7F800000#32
  let main_v30 : FVec F S1 .f32 := broadcastInDim S1 ![] bcast_S_S1 main_cst_10
  let main_v31 : IVec S1 1 := cmpf .olt main_v29 main_v30
  let main_c_11 : IVec S_ 1 := constantI S_ 1 1#1
  let main_v32 : IVec S_ 1 := (fun x v => Host.reduce IntOp.andi x v reducesTo_S1_S_d0 h_S_) main_v31 main_c_11
  let main_v33 : IVec S_ 1 := andi main_v28 main_v32
  fn_part2 (F := F) main_arg1 main_arg2 main_v33

def fn {F : FTy → Type} [FloatOps F] (main_arg0 : FVec F S100000x128 .f32) (main_arg1 : IVec S640000 32) (main_arg2 : IVec S640000 32) (main_arg3 : FVec F S128x128 .f32) (main_arg4 : FVec F S128 .f32) (main_arg5 : FVec F S128x128 .f32) (main_arg6 : FVec F S128 .f32) (main_arg7 : FVec F S128x1 .f32) (main_arg8 : FVec F S1 .f32) : IVec S_ 1 :=
  let main_v0 : FVec F S100000x128 .f32 := Host.absf main_arg0
  let main_cst : FVec F S_ .f32 := constant S_ .f32 0x7F800000#32
  let main_v1 : FVec F S100000x128 .f32 := broadcastInDim S100000x128 ![] bcast_S_S100000x128 main_cst
  let main_v2 : IVec S100000x128 1 := cmpf .olt main_v0 main_v1
  let main_c : IVec S_ 1 := constantI S_ 1 1#1
  let main_v3 : IVec S_ 1 := (fun x v => Host.reduce IntOp.andi x v reducesTo_S100000x128_S_d0_1 h_S_) main_v2 main_c
  let main_v4 : FVec F S128x128 .f32 := Host.absf main_arg3
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg4
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg5
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg1 main_arg2 main_arg6 main_arg7 main_arg8 main_v13 main_v16
-- ==== Kernel.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S640000x1 : Shape := ⟨2, ![640000, 1]⟩
abbrev S640000x128 : Shape := ⟨2, ![640000, 128]⟩
abbrev S5120x128 : Shape := ⟨2, ![5120, 128]⟩
abbrev S5120x1 : Shape := ⟨2, ![5120, 1]⟩
abbrev S1024x128 : Shape := ⟨2, ![1024, 128]⟩
abbrev S1x128 : Shape := ⟨2, ![1, 128]⟩
abbrev S1024x1 : Shape := ⟨2, ![1024, 1]⟩
abbrev S1x1 : Shape := ⟨2, ![1, 1]⟩

abbrev nBuf : Space → Nat
  | .hbm => 44
  | .vmem => 12
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S_, .i32⟩
  | .hbm, ⟨10, _⟩ => ⟨S_, .i32⟩
  | .hbm, ⟨11, _⟩ => ⟨S_, .i32⟩
  | .hbm, ⟨12, _⟩ => ⟨S640000, .i32⟩
  | .hbm, ⟨13, _⟩ => ⟨S640000, .i32⟩
  | .hbm, ⟨14, _⟩ => ⟨S_, .i32⟩
  | .hbm, ⟨15, _⟩ => ⟨S640000, .i32⟩
  | .hbm, ⟨16, _⟩ => ⟨S640000, .i32⟩
  | .hbm, ⟨17, _⟩ => ⟨S_, .i32⟩
  | .hbm, ⟨18, _⟩ => ⟨S_, .i32⟩
  | .hbm, ⟨19, _⟩ => ⟨S_, .i32⟩
  | .hbm, ⟨20, _⟩ => ⟨S640000, .i32⟩
  | .hbm, ⟨21, _⟩ => ⟨S640000, .i32⟩
  | .hbm, ⟨22, _⟩ => ⟨S_, .i32⟩
  | .hbm, ⟨23, _⟩ => ⟨S640000, .i32⟩
  | .hbm, ⟨24, _⟩ => ⟨S640000, .i32⟩
  | .hbm, ⟨25, _⟩ => ⟨S_, .i32⟩
  | .hbm, ⟨26, _⟩ => ⟨S640000, .i32⟩
  | .hbm, ⟨27, _⟩ => ⟨S640000, .i1⟩
  | .hbm, ⟨28, _⟩ => ⟨S_, .i32⟩
  | .hbm, ⟨29, _⟩ => ⟨S640000, .i32⟩
  | .hbm, ⟨30, _⟩ => ⟨S640000, .i32⟩
  | .hbm, ⟨31, _⟩ => ⟨S640000, .i32⟩
  | .hbm, ⟨32, _⟩ => ⟨S640000x1, .i32⟩
  | .hbm, ⟨33, _⟩ => ⟨S640000x128, .f32⟩
  | .hbm, ⟨34, _⟩ => ⟨S_, .i32⟩
  | .hbm, ⟨35, _⟩ => ⟨S640000, .i32⟩
  | .hbm, ⟨36, _⟩ => ⟨S640000, .i1⟩
  | .hbm, ⟨37, _⟩ => ⟨S_, .i32⟩
  | .hbm, ⟨38, _⟩ => ⟨S640000, .i32⟩
  | .hbm, ⟨39, _⟩ => ⟨S640000, .i32⟩
  | .hbm, ⟨40, _⟩ => ⟨S640000, .i32⟩
  | .hbm, ⟨41, _⟩ => ⟨S640000x1, .i32⟩
  | .hbm, ⟨42, _⟩ => ⟨S640000x128, .f32⟩
  | .hbm, ⟨43, _⟩ => ⟨S640000x1, .f32⟩
  | .local _ .vmem, ⟨0, _⟩ => ⟨S5120x128, .f32⟩
  | .local _ .vmem, ⟨1, _⟩ => ⟨S5120x128, .f32⟩
  | .local _ .vmem, ⟨2, _⟩ => ⟨S5120x128, .f32⟩
  | .local _ .vmem, ⟨3, _⟩ => ⟨S5120x128, .f32⟩
  | .local _ .vmem, ⟨4, _⟩ => ⟨S128x128, .f32⟩
  | .local _ .vmem, ⟨5, _⟩ => ⟨S128, .f32⟩
  | .local _ .vmem, ⟨6, _⟩ => ⟨S128x128, .f32⟩
  | .local _ .vmem, ⟨7, _⟩ => ⟨S128, .f32⟩
  | .local _ .vmem, ⟨8, _⟩ => ⟨S128x1, .f32⟩
  | .local _ .vmem, ⟨9, _⟩ => ⟨S1, .f32⟩
  | .local _ .vmem, ⟨10, _⟩ => ⟨S5120x1, .f32⟩
  | .local _ .vmem, ⟨11, _⟩ => ⟨S5120x1, .f32⟩
  | _, _ => ⟨S100000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_c_0 : Ref sig .tc := ⟨.hbm, 10, rfl⟩
abbrev main_call0_v0 : Ref sig .tc := ⟨.hbm, 11, rfl⟩
abbrev main_call0_v1 : Ref sig .tc := ⟨.hbm, 12, rfl⟩
abbrev main_call0_v2 : Ref sig .tc := ⟨.hbm, 13, rfl⟩
abbrev main_call0_v3 : Ref sig .tc := ⟨.hbm, 14, rfl⟩
abbrev main_call0_v4 : Ref sig .tc := ⟨.hbm, 15, rfl⟩
abbrev main_v0 : Ref sig .tc := ⟨.hbm, 16, rfl⟩
abbrev main_c_1 : Ref sig .tc := ⟨.hbm, 17, rfl⟩
abbrev main_c_2 : Ref sig .tc := ⟨.hbm, 18, rfl⟩
abbrev main_call1_v0 : Ref sig .tc := ⟨.hbm, 19, rfl⟩
abbrev main_call1_v1 : Ref sig .tc := ⟨.hbm, 20, rfl⟩
abbrev main_call1_v2 : Ref sig .tc := ⟨.hbm, 21, rfl⟩
abbrev main_call1_v3 : Ref sig .tc := ⟨.hbm, 22, rfl⟩
abbrev main_call1_v4 : Ref sig .tc := ⟨.hbm, 23, rfl⟩
abbrev main_v1 : Ref sig .tc := ⟨.hbm, 24, rfl⟩
abbrev main_c_3 : Ref sig .tc := ⟨.hbm, 25, rfl⟩
abbrev main_v2 : Ref sig .tc := ⟨.hbm, 26, rfl⟩
abbrev main_v3 : Ref sig .tc := ⟨.hbm, 27, rfl⟩
abbrev main_c_4 : Ref sig .tc := ⟨.hbm, 28, rfl⟩
abbrev main_v4 : Ref sig .tc := ⟨.hbm, 29, rfl⟩
abbrev main_v5 : Ref sig .tc := ⟨.hbm, 30, rfl⟩
abbrev main_v6 : Ref sig .tc := ⟨.hbm, 31, rfl⟩
abbrev main_v7 : Ref sig .tc := ⟨.hbm, 32, rfl⟩
abbrev main_v8 : Ref sig .tc := ⟨.hbm, 33, rfl⟩
abbrev main_c_5 : Ref sig .tc := ⟨.hbm, 34, rfl⟩
abbrev main_v9 : Ref sig .tc := ⟨.hbm, 35, rfl⟩
abbrev main_v10 : Ref sig .tc := ⟨.hbm, 36, rfl⟩
abbrev main_c_6 : Ref sig .tc := ⟨.hbm, 37, rfl⟩
abbrev main_v11 : Ref sig .tc := ⟨.hbm, 38, rfl⟩
abbrev main_v12 : Ref sig .tc := ⟨.hbm, 39, rfl⟩
abbrev main_v13 : Ref sig .tc := ⟨.hbm, 40, rfl⟩
abbrev main_v14 : Ref sig .tc := ⟨.hbm, 41, rfl⟩
abbrev main_v15 : Ref sig .tc := ⟨.hbm, 42, rfl⟩
abbrev main_v16 : Ref sig .tc := ⟨.hbm, 43, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg8_0 : Ref sig .tc := ⟨.vmem, 10, rfl⟩
abbrev cc0_stg8_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem8_1 : DmaSem sig := 11

abbrev nD : Nat := 1
abbrev τ : Topo := Topo.v7x

variable {F : FTy → Type} [FloatOps F]

abbrev grid0 : Pipeline.Grid := ⟨1, ![125], ![false]⟩

@[reducible] def k0_t1_loop : Scf.Loop 32 :=
  let c0_i32 : BitVec 32 := 0#32
  let c5_i32 : BitVec 32 := 5#32
  let v9 : BitVec 32 := Scalar.addi c0_i32 c5_i32
  let c1_i32 : BitVec 32 := 1#32
  ⟨c0_i32, v9, c1_i32⟩
def k0_mult1 (k0_t1 : Fin k0_t1_loop.trips) : BitVec 32 :=
  let c0_i32_9 : BitVec 32 := 0#32
  let c0_i32 : BitVec 32 := 0#32
  let c1_i32 : BitVec 32 := 1#32
  let arg10 : BitVec 32 := Scf.iv c0_i32 c1_i32 k0_t1
  let c1024_i32 : BitVec 32 := 1024#32
  let v10 : BitVec 32 := Scalar.muli arg10 c1024_i32
  let v11 : BitVec 32 := Scalar.addi c0_i32_9 v10
  v11
def k0_off1 (k0_t1 : Fin k0_t1_loop.trips) : Fin 2 → Nat :=
  let c0_i32_9 : BitVec 32 := 0#32
  let c0_i32 : BitVec 32 := 0#32
  let c1_i32 : BitVec 32 := 1#32
  let arg10 : BitVec 32 := Scf.iv c0_i32 c1_i32 k0_t1
  let c1024_i32 : BitVec 32 := 1024#32
  let v10 : BitVec 32 := Scalar.muli arg10 c1024_i32
  let v11 : BitVec 32 := Scalar.addi c0_i32_9 v10
  let v12 : BitVec 32 := v11
  let v13 : Index := Scalar.indexCast v12
  let c0_10 : Index := 0#32
  ![v13.toNat, 0]
def k0_off2 (k0_t1 : Fin k0_t1_loop.trips) : Fin 2 → Nat :=
  let c0_i32_9 : BitVec 32 := 0#32
  let c0_i32 : BitVec 32 := 0#32
  let c1_i32 : BitVec 32 := 1#32
  let arg10 : BitVec 32 := Scf.iv c0_i32 c1_i32 k0_t1
  let c1024_i32 : BitVec 32 := 1024#32
  let v10 : BitVec 32 := Scalar.muli arg10 c1024_i32
  let v11 : BitVec 32 := Scalar.addi c0_i32_9 v10
  let v12 : BitVec 32 := v11
  let v39 : Index := Scalar.indexCast v12
  let c0_16 : Index := 0#32
  ![v39.toNat, 0]
def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_8 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5120x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S5120x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S128x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S1 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 2 → Memref sig .tc .vmem S5120x1 .f32 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  inb_S128x128_S128x128_0_0 : ∀ a, (![0, 0] : Fin 2 → Nat) a + S128x128.size a ≤ S128x128.size a
  h_S128x128 : 0 < S128x128.numel
  bitsLt_bf16_f32 : FTy.bits .bf16 < FTy.bits .f32
  inb_S128x1_S128x1_0_0 : ∀ a, (![0, 0] : Fin 2 → Nat) a + S128x1.size a ≤ S128x1.size a
  h_S128x1 : 0 < S128x1.numel
  inb_S128_S128_0 : ∀ a, (![0] : Fin 1 → Nat) a + S128.size a ≤ S128.size a
  h_S128 : 0 < S128.numel
  inb_S1_S1_0 : ∀ a, (![0] : Fin 1 → Nat) a + S1.size a ≤ S1.size a
  h_S1 : 0 < S1.numel
  h_S1024x128 : 0 < S1024x128.numel
  shapeCasts_S1024x128_S1024x128 : S1024x128.ShapeCasts S1024x128
  shapeCasts_S128_S1x128 : S128.ShapeCasts S1x128
  broadcasts_S1x128_S1024x128 : S1x128.Broadcasts S1024x128
  shapeCasts_S1_S1x1 : S1.ShapeCasts S1x1
  broadcasts_S1x1_S1024x1 : S1x1.Broadcasts S1024x1
  h_S1024x1 : 0 < S1024x1.numel
  gather_S100000x128_S640000x1_S640000x128_1_0_n_n_0_1_1128_wf : GatherDims.WF S100000x128 S640000x1 S640000x128 [1] [0] [] [0] [] 1 ![1, 128]
  dot_S1024x128_S128x128_S1024x128_1_0_0_1_n_n_wf : DotDims.WF S1024x128 S128x128 S1024x128 [1] [0] [0] [1] [] []
  dot_S1024x128_S128x1_S1024x1_1_0_0_1_n_n_wf : DotDims.WF S1024x128 S128x1 S1024x1 [1] [0] [0] [1] [] []
  hrank0 : 0 < grid0.rank
  k0_t1_ok : k0_t1_loop.OK
  k0_mult1_dvd : ∀ k0_t1 : Fin k0_t1_loop.trips, 1024 ∣ (k0_mult1 k0_t1).toNat
  k0_off1_inb : ∀ k0_t1 : Fin k0_t1_loop.trips, ∀ a, (k0_off1 k0_t1) a + S1024x128.size a ≤ S5120x128.size a
  k0_off2_inb : ∀ k0_t1 : Fin k0_t1_loop.trips, ∀ a, (k0_off2 k0_t1) a + S1024x1.size a ≤ S5120x1.size a
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5120x128.size a ≤ S640000x128.size a
  hwx0_0 : ∀ i : grid0.Coords, EltTy.bits .f32 = 32 ∨ (Rect.block (s := S640000x128) S5120x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S5120x128.size a ≤ S640000x128.size a
  hwx0_1 : ∀ i : grid0.Coords, EltTy.bits .f32 = 32 ∨ (Rect.block (s := S640000x128) S5120x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S128.size a ≤ S128.size a
  hwx0_3 : ∀ i : grid0.Coords, EltTy.bits .f32 = 32 ∨ (Rect.block (s := S128) S128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S128.size a ≤ S128.size a
  hwx0_5 : ∀ i : grid0.Coords, EltTy.bits .f32 = 32 ∨ (Rect.block (s := S128) S128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S128x1.size a ≤ S128x1.size a
  hwx0_6 : ∀ i : grid0.Coords, EltTy.bits .f32 = 32 ∨ (Rect.block (s := S128x1) S128x1.size (cc0_transform_6 i) (hinb0_6 i)).WholeWords (EltTy.packing .f32)
  hstage0_7 : ∀ j, (stage0_7 j).IsWhole
  nbuf0_7 : grid0.bufCount reads0_7 true = 1
  hreads0_7 : ∀ i i' : grid0.Coords, (∀ a, reads0_7 a = true → i a = i' a) → cc0_transform_7 i = cc0_transform_7 i'
  hinb0_7 : ∀ (i : grid0.Coords) a, (cc0_transform_7 i a + 1) * S1.size a ≤ S1.size a
  hwx0_7 : ∀ i : grid0.Coords, EltTy.bits .f32 = 32 ∨ (Rect.block (s := S1) S1.size (cc0_transform_7 i) (hinb0_7 i)).WholeWords (EltTy.packing .f32)
  hstage0_8 : ∀ j, (stage0_8 j).IsWhole
  nbuf0_8 : grid0.bufCount reads0_8 false = 2
  hreads0_8 : ∀ i i' : grid0.Coords, (∀ a, reads0_8 a = true → i a = i' a) → cc0_transform_8 i = cc0_transform_8 i'
  hinb0_8 : ∀ (i : grid0.Coords) a, (cc0_transform_8 i a + 1) * S5120x1.size a ≤ S640000x1.size a
  hwx0_8 : ∀ i : grid0.Coords, EltTy.bits .f32 = 32 ∨ (Rect.block (s := S640000x1) S5120x1.size (cc0_transform_8 i) (hinb0_8 i)).WholeWords (EltTy.packing .f32)

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S1024x128_S128x128_S1024x128_1_0_0_1_n_n : DotDims S1024x128 S128x128 S1024x128 where
  lhsContracting := [1]
  rhsContracting := [0]
  lhsNonContracting := [0]
  rhsNonContracting := [1]
  lhsBatch := []
  rhsBatch := []
  wf := dot_S1024x128_S128x128_S1024x128_1_0_0_1_n_n_wf
def dot_S1024x128_S128x1_S1024x1_1_0_0_1_n_n : DotDims S1024x128 S128x1 S1024x1 where
  lhsContracting := [1]
  rhsContracting := [0]
  lhsNonContracting := [0]
  rhsNonContracting := [1]
  lhsBatch := []
  rhsBatch := []
  wf := dot_S1024x128_S128x1_S1024x1_1_0_0_1_n_n_wf

abbrev win0_0 : Pipeline.Window sig grid0 :=
  Pipeline.Window.ofSpec (Memref.whole main_v8) S5120x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S5120x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg3) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_arg4) S128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg5) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_arg6) S128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_arg7) S128x1.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_arg8) S1.size cc0_transform_7 reads0_7 false true 1 stage0_7 sem0_7
    hrank0 hreads0_7 hinb0_7 nbuf0_7 (Memref.isWhole_whole _) hwx0_7 hstage0_7

abbrev win0_8 : Pipeline.Window sig grid0 :=
  Pipeline.Window.ofSpec (Memref.whole main_v16) S5120x1.size cc0_transform_8 reads0_8 true false 2 stage0_8 sem0_8
    hrank0 hreads0_8 hinb0_8 nbuf0_8 (Memref.isWhole_whole _) hwx0_8 hstage0_8

abbrev win0 : Fin 9 → Pipeline.Window sig grid0 := fun | 0 => win0_0 | 1 => win0_1 | 2 => win0_2 | 3 => win0_3 | 4 => win0_4 | 5 => win0_5 | 6 => win0_6 | 7 => win0_7 | 8 => win0_8 | ⟨_ + 9, h⟩ => absurd h (Nat.not_lt.2 (Nat.le_add_left _ _))
abbrev spec0 : Fin 9 → Pipeline.WinSpec sig grid0.rank := fun w => (win0 w).toWinSpec

class Facts : Prop extends Facts₀ where

variable [Facts]
-- ==== ReferenceIdeal.lean ====
abbrev S100000x128 : Shape := ⟨2, ![100000, 128]⟩
abbrev S640000 : Shape := ⟨1, ![640000]⟩
abbrev S128x128 : Shape := ⟨2, ![128, 128]⟩
abbrev S128 : Shape := ⟨1, ![128]⟩
abbrev S128x1 : Shape := ⟨2, ![128, 1]⟩
abbrev S1 : Shape := ⟨1, ![1]⟩
abbrev S_ : Shape := ⟨0, ![]⟩
abbrev S640000x1 : Shape := ⟨2, ![640000, 1]⟩
abbrev S640000x128 : Shape := ⟨2, ![640000, 128]⟩
abbrev S1x128 : Shape := ⟨2, ![1, 128]⟩
abbrev S1x1 : Shape := ⟨2, ![1, 1]⟩

abbrev nBuf : Space → Nat
  | .hbm => 46
  | .vmem => 0
  | .smem => 0
  | _ => 0

abbrev bufTy : (tb : Table) → Fin (tcTables nBuf tb) → BufTy
  | .hbm, ⟨0, _⟩ => ⟨S100000x128, .f32⟩
  | .hbm, ⟨1, _⟩ => ⟨S640000, .i32⟩
  | .hbm, ⟨2, _⟩ => ⟨S640000, .i32⟩
  | .hbm, ⟨3, _⟩ => ⟨S128x128, .f32⟩
  | .hbm, ⟨4, _⟩ => ⟨S128, .f32⟩
  | .hbm, ⟨5, _⟩ => ⟨S128x128, .f32⟩
  | .hbm, ⟨6, _⟩ => ⟨S128, .f32⟩
  | .hbm, ⟨7, _⟩ => ⟨S128x1, .f32⟩
  | .hbm, ⟨8, _⟩ => ⟨S1, .f32⟩
  | .hbm, ⟨9, _⟩ => ⟨S_, .i32⟩
  | .hbm, ⟨10, _⟩ => ⟨S640000, .i32⟩
  | .hbm, ⟨11, _⟩ => ⟨S640000, .i1⟩
  | .hbm, ⟨12, _⟩ => ⟨S_, .i32⟩
  | .hbm, ⟨13, _⟩ => ⟨S640000, .i32⟩
  | .hbm, ⟨14, _⟩ => ⟨S640000, .i32⟩
  | .hbm, ⟨15, _⟩ => ⟨S640000, .i32⟩
  | .hbm, ⟨16, _⟩ => ⟨S640000x1, .i32⟩
  | .hbm, ⟨17, _⟩ => ⟨S640000x128, .f32⟩
  | .hbm, ⟨18, _⟩ => ⟨S_, .i32⟩
  | .hbm, ⟨19, _⟩ => ⟨S640000, .i32⟩
  | .hbm, ⟨20, _⟩ => ⟨S640000, .i1⟩
  | .hbm, ⟨21, _⟩ => ⟨S_, .i32⟩
  | .hbm, ⟨22, _⟩ => ⟨S640000, .i32⟩
  | .hbm, ⟨23, _⟩ => ⟨S640000, .i32⟩
  | .hbm, ⟨24, _⟩ => ⟨S640000, .i32⟩
  | .hbm, ⟨25, _⟩ => ⟨S640000x1, .i32⟩
  | .hbm, ⟨26, _⟩ => ⟨S640000x128, .f32⟩
  | .hbm, ⟨27, _⟩ => ⟨S640000x128, .f32⟩
  | .hbm, ⟨28, _⟩ => ⟨S640000x128, .f32⟩
  | .hbm, ⟨29, _⟩ => ⟨S1x128, .f32⟩
  | .hbm, ⟨30, _⟩ => ⟨S640000x128, .f32⟩
  | .hbm, ⟨31, _⟩ => ⟨S640000x128, .f32⟩
  | .hbm, ⟨32, _⟩ => ⟨S_, .f32⟩
  | .hbm, ⟨33, _⟩ => ⟨S640000x128, .f32⟩
  | .hbm, ⟨34, _⟩ => ⟨S640000x128, .f32⟩
  | .hbm, ⟨35, _⟩ => ⟨S640000x128, .f32⟩
  | .hbm, ⟨36, _⟩ => ⟨S1x128, .f32⟩
  | .hbm, ⟨37, _⟩ => ⟨S640000x128, .f32⟩
  | .hbm, ⟨38, _⟩ => ⟨S640000x128, .f32⟩
  | .hbm, ⟨39, _⟩ => ⟨S_, .f32⟩
  | .hbm, ⟨40, _⟩ => ⟨S640000x128, .f32⟩
  | .hbm, ⟨41, _⟩ => ⟨S640000x128, .f32⟩
  | .hbm, ⟨42, _⟩ => ⟨S640000x1, .f32⟩
  | .hbm, ⟨43, _⟩ => ⟨S1x1, .f32⟩
  | .hbm, ⟨44, _⟩ => ⟨S640000x1, .f32⟩
  | .hbm, ⟨45, _⟩ => ⟨S640000x1, .f32⟩
  | _, _ => ⟨S100000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_c : Ref sig .tc := ⟨.hbm, 9, rfl⟩
abbrev main_v0 : Ref sig .tc := ⟨.hbm, 10, rfl⟩
abbrev main_v1 : Ref sig .tc := ⟨.hbm, 11, rfl⟩
abbrev main_c_0 : Ref sig .tc := ⟨.hbm, 12, rfl⟩
abbrev main_v2 : Ref sig .tc := ⟨.hbm, 13, rfl⟩
abbrev main_v3 : Ref sig .tc := ⟨.hbm, 14, rfl⟩
abbrev main_v4 : Ref sig .tc := ⟨.hbm, 15, rfl⟩
abbrev main_v5 : Ref sig .tc := ⟨.hbm, 16, rfl⟩
abbrev main_v6 : Ref sig .tc := ⟨.hbm, 17, rfl⟩
abbrev main_c_1 : Ref sig .tc := ⟨.hbm, 18, rfl⟩
abbrev main_v7 : Ref sig .tc := ⟨.hbm, 19, rfl⟩
abbrev main_v8 : Ref sig .tc := ⟨.hbm, 20, rfl⟩
abbrev main_c_2 : Ref sig .tc := ⟨.hbm, 21, rfl⟩
abbrev main_v9 : Ref sig .tc := ⟨.hbm, 22, rfl⟩
abbrev main_v10 : Ref sig .tc := ⟨.hbm, 23, rfl⟩
abbrev main_v11 : Ref sig .tc := ⟨.hbm, 24, rfl⟩
abbrev main_v12 : Ref sig .tc := ⟨.hbm, 25, rfl⟩
abbrev main_v13 : Ref sig .tc := ⟨.hbm, 26, rfl⟩
abbrev main_v14 : Ref sig .tc := ⟨.hbm, 27, rfl⟩
abbrev main_v15 : Ref sig .tc := ⟨.hbm, 28, rfl⟩
abbrev main_v16 : Ref sig .tc := ⟨.hbm, 29, rfl⟩
abbrev main_v17 : Ref sig .tc := ⟨.hbm, 30, rfl⟩
abbrev main_v18 : Ref sig .tc := ⟨.hbm, 31, rfl⟩
abbrev main_call0_cst : Ref sig .tc := ⟨.hbm, 32, rfl⟩
abbrev main_call0_v0 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_call1_cst : Ref sig .tc := ⟨.hbm, 39, rfl⟩
abbrev main_call1_v0 : Ref sig .tc := ⟨.hbm, 40, rfl⟩
abbrev main_v24 : Ref sig .tc := ⟨.hbm, 41, rfl⟩
abbrev main_v25 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩

abbrev nD : Nat := 1
abbrev τ : Topo := Topo.v7x

variable {F : FTy → Type} [FloatOps F]

class Facts₀ : Prop where
  bcast_S_S640000 : S_.BroadcastsInDim S640000 (![] : Fin 0 → Fin S640000.rank)
  bcast_S640000_S640000x1_0 : S640000.BroadcastsInDim S640000x1 (![0] : Fin 1 → Fin S640000x1.rank)
  bcast_S128_S1x128_1 : S128.BroadcastsInDim S1x128 (![1] : Fin 1 → Fin S1x128.rank)
  bcast_S1x128_S640000x128_0_1 : S1x128.BroadcastsInDim S640000x128 (![0, 1] : Fin 2 → Fin S640000x128.rank)
  bcast_S_S640000x128 : S_.BroadcastsInDim S640000x128 (![] : Fin 0 → Fin S640000x128.rank)
  bcast_S1_S1x1_1 : S1.BroadcastsInDim S1x1 (![1] : Fin 1 → Fin S1x1.rank)
  bcast_S1x1_S640000x1_0_1 : S1x1.BroadcastsInDim S640000x1 (![0, 1] : Fin 2 → Fin S640000x1.rank)
  gather_S100000x128_S640000x1_S640000x128_1_0_n_n_0_1_1128_wf : GatherDims.WF S100000x128 S640000x1 S640000x128 [1] [0] [] [0] [] 1 ![1, 128]
  dot_S640000x128_S128x128_S640000x128_1_0_0_1_n_n_wf : DotDims.WF S640000x128 S128x128 S640000x128 [1] [0] [0] [1] [] []
  dot_S640000x128_S128x1_S640000x1_1_0_0_1_n_n_wf : DotDims.WF S640000x128 S128x1 S640000x1 [1] [0] [0] [1] [] []

variable [Facts₀]

def gather_S100000x128_S640000x1_S640000x128_1_0_n_n_0_1_1128 : GatherDims S100000x128 S640000x1 S640000x128 where
  offsetDims := [1]
  collapsedSliceDims := [0]
  operandBatchingDims := []
  startIndicesBatchingDims := []
  startIndexMap := [0]
  indexVectorDim := 1
  sliceSizes := ![1, 128]
  wf := gather_S100000x128_S640000x1_S640000x128_1_0_n_n_0_1_1128_wf
def dot_S640000x128_S128x128_S640000x128_1_0_0_1_n_n : DotDims S640000x128 S128x128 S640000x128 where
  lhsContracting := [1]
  rhsContracting := [0]
  lhsNonContracting := [0]
  rhsNonContracting := [1]
  lhsBatch := []
  rhsBatch := []
  wf := dot_S640000x128_S128x128_S640000x128_1_0_0_1_n_n_wf
def dot_S640000x128_S128x1_S640000x1_1_0_0_1_n_n : DotDims S640000x128 S128x1 S640000x1 where
  lhsContracting := [1]
  rhsContracting := [0]
  lhsNonContracting := [0]
  rhsNonContracting := [1]
  lhsBatch := []
  rhsBatch := []
  wf := dot_S640000x128_S128x1_S640000x1_1_0_0_1_n_n_wf

class Facts : Prop extends Facts₀ where

variable [Facts]
-- ==== Proof.Spec.lean ====
/-
  The edge decoder's value, one edge at a time.

  An edge carries the feature rows `a`, `d` of its two end nodes (128 numbers each). Its score is a three-layer
  perceptron of their elementwise product `h l = a l · d l`:
    h1 j = max (Σ_l h l · W1 l j + b1 j) 0,   h2 k = max (Σ_j h1 j · W2 j k + b2 k) 0,   score = Σ_k h2 k · W3 k + b3,
  over the extended reals. Both programs compute exactly this of the same rows: a change of float format is the
  identity there, and a matrix product into a zero accumulator is the plain sum, so no algebraic law joins the two
  sides; only the order in which the rows are produced and tiled differs. The rectifier's zero is kept as the word
  both programs print.
-/
import Idealize.ShloMosaic.PureOps.Ideal
import Idealize.ShloMosaic.Lib.ValueIdx

noncomputable section

namespace Cert.EdgeDecoder

open Idealize.ShloMosaic Idealize.ShloMosaic.ValueIdx

/-- The rectifier's threshold: the word `0x00000000` both programs print, read as an extended real. -/
abbrev relu0 : EReal := Ideal.ofBits .f32 0x00000000#32

/-- One unit of a dense layer followed by the rectifier: `max (Σ_l h l · W l j + b j) 0`. -/
def dense (h : Fin 128 → EReal) (W : Fin 128 → Fin 128 → EReal) (b : Fin 128 → EReal) (j : Fin 128) : EReal :=
  max ((∑ l : Fin 128, h l * W l j) + b j) relu0

/-- The score of one edge from the feature rows of its two end nodes. -/
def edgeScore (a d : Fin 128 → EReal) (W1 : Fin 128 → Fin 128 → EReal) (b1 : Fin 128 → EReal)
    (W2 : Fin 128 → Fin 128 → EReal) (b2 : Fin 128 → EReal) (W3 : Fin 128 → EReal) (b3 : EReal) : EReal :=
  (∑ k : Fin 128, dense (dense (fun l => a l * d l) W1 b1) W2 b2 k * W3 k) + b3

/-- All 640000 scores as one function of the two arrays of gathered rows and the weights: entry `(e, 0)` is the
    score of edge `e`, from row `e` of each array. -/
def scores (gs gd : (⟨2, ![640000, 128]⟩ : Shape).Idx → EReal)
    (W1 : (⟨2, ![128, 128]⟩ : Shape).Idx → EReal) (b1 : (⟨1, ![128]⟩ : Shape).Idx → EReal)
    (W2 : (⟨2, ![128, 128]⟩ : Shape).Idx → EReal) (b2 : (⟨1, ![128]⟩ : Shape).Idx → EReal)
    (W3 : (⟨2, ![128, 1]⟩ : Shape).Idx → EReal) (b3 : (⟨1, ![1]⟩ : Shape).Idx → EReal) :
    (⟨2, ![640000, 1]⟩ : Shape).Idx → EReal :=
  fun i => edgeScore (fun l => gs (ix2 (i 0) l)) (fun l => gd (ix2 (i 0) l))
    (fun l j => W1 (ix2 l j)) (fun j => b1 (ix1 j)) (fun j k => W2 (ix2 j k)) (fun k => b2 (ix1 k))
    (fun k => W3 (ix2 k (0 : Fin 1))) (b3 (ix1 (0 : Fin 1)))

end Cert.EdgeDecoder

end
-- ==== Proof.KernelTile.lean ====
/-
  What one chunk of the kernel's body computes, entry by entry.

  A chunk is 1024 consecutive edges of the block. From the two 1024 × 128 tiles of gathered rows and the weights the
  body forms the elementwise product, two dense layers with the rectifier, and the final 128 → 1 layer. Read at the
  extended reals, where a change of float format is the identity and a matrix product into a zero accumulator is the
  plain sum over the 128 shared positions, entry `(p, 0)` of the chunk's result is the score of one edge from row `p`
  of each tile: the same function the reference applies to row `e` of its gathered arrays.
-/
import proofs.«417885_j24257975287899_3_alg».proof.Proof.Gen.KernelIdeal.Skeleton
import proofs.«417885_j24257975287899_3_alg».proof.Proof.Spec
import Idealize.ShloMosaic.Lib.ValueIdx
import Idealize.ShloMosaic.Lib.ValueLayout
import Idealize.ShloMosaic.Lib.Pipeline.Value
import Idealize.ShloMosaic.PureOps.Ideal.Laws

noncomputable section

namespace Cert.KernelIdeal.Tile

open Cert.KernelIdeal Cert.KernelIdeal.Gen Idealize.ShloMosaic Idealize.ShloMosaic.ValueIdx Cert.EdgeDecoder

/-! ## The two matrix products of the body, as sums -/

theorem lhs_hidden_0 (i : S1024x128.Idx) (q : dot_S1024x128_S128x128_S1024x128_1_0_0_1_n_n.contr.Idx) :
    (dot_S1024x128_S128x128_S1024x128_1_0_0_1_n_n.lhsIdx i q 0).val = (i 0).val := by
  unfold DotDims.lhsIdx
  rw [dif_neg (show ¬(0 : Fin S1024x128.rank) ∈ dot_S1024x128_S128x128_S1024x128_1_0_0_1_n_n.lhsBatch by decide), dif_pos (show (0 : Fin S1024x128.rank) ∈ dot_S1024x128_S128x128_S1024x128_1_0_0_1_n_n.lhsNonContracting by decide)]
  rfl
theorem lhs_hidden_1 (i : S1024x128.Idx) (q : dot_S1024x128_S128x128_S1024x128_1_0_0_1_n_n.contr.Idx) :
    (dot_S1024x128_S128x128_S1024x128_1_0_0_1_n_n.lhsIdx i q 1).val = (q ⟨0, by decide⟩).val :=
  dot_S1024x128_S128x128_S1024x128_1_0_0_1_n_n.lhsIdx_val_of_single rfl i q
theorem rhs_hidden_0 (i : S1024x128.Idx) (q : dot_S1024x128_S128x128_S1024x128_1_0_0_1_n_n.contr.Idx) :
    (dot_S1024x128_S128x128_S1024x128_1_0_0_1_n_n.rhsIdx i q 0).val = (q ⟨0, by decide⟩).val :=
  dot_S1024x128_S128x128_S1024x128_1_0_0_1_n_n.rhsIdx_val_of_single rfl i q
theorem rhs_hidden_1 (i : S1024x128.Idx) (q : dot_S1024x128_S128x128_S1024x128_1_0_0_1_n_n.contr.Idx) :
    (dot_S1024x128_S128x128_S1024x128_1_0_0_1_n_n.rhsIdx i q 1).val = (i 1).val := by
  unfold DotDims.rhsIdx
  rw [dif_neg (show ¬(1 : Fin S128x128.rank) ∈ dot_S1024x128_S128x128_S1024x128_1_0_0_1_n_n.rhsBatch by decide), dif_pos (show (1 : Fin S128x128.rank) ∈ dot_S1024x128_S128x128_S1024x128_1_0_0_1_n_n.rhsNonContracting by decide)]
  rfl

/-- The product into the zero accumulator, read at row `p`, column `j`: the sum over the 128 shared positions of the
    left operand's row `p` against the right operand's column `j`. -/
theorem hidden_apply (l : FVec Ideal S1024x128 .bf16) (r : FVec Ideal S128x128 .bf16) (p : Fin 1024) (j : Fin 128) :
    matmul dot_S1024x128_S128x128_S1024x128_1_0_0_1_n_n none l r (constant (F := Ideal) S1024x128 .f32 0x00000000#32) (ix2 p j)
      = ∑ k : Fin 128, l (ix2 p k) * r (ix2 k j) := by
  simp only [matmul]
  rw [Ideal.matmul_constant_zero_apply, ← Equiv.sum_comp (ValueIdx.contrEquiv1 dot_S1024x128_S128x128_S1024x128_1_0_0_1_n_n 128 rfl rfl).symm]
  refine Finset.sum_congr rfl fun k _ => ?_
  have hk := ValueIdx.contrEquiv1_symm_val dot_S1024x128_S128x128_S1024x128_1_0_0_1_n_n 128 rfl rfl k
  have el : dot_S1024x128_S128x128_S1024x128_1_0_0_1_n_n.lhsIdx (ix2 p j) ((ValueIdx.contrEquiv1 dot_S1024x128_S128x128_S1024x128_1_0_0_1_n_n 128 rfl rfl).symm k) = ix2 p k := funext fun a => Fin.ext (by
    match a with
    | ⟨0, _⟩ => exact lhs_hidden_0 _ _
    | ⟨1, _⟩ => exact (lhs_hidden_1 _ _).trans hk)
  have er : dot_S1024x128_S128x128_S1024x128_1_0_0_1_n_n.rhsIdx (ix2 p j) ((ValueIdx.contrEquiv1 dot_S1024x128_S128x128_S1024x128_1_0_0_1_n_n 128 rfl rfl).symm k) = ix2 k j := funext fun a => Fin.ext (by
    match a with
    | ⟨0, _⟩ => exact (rhs_hidden_0 _ _).trans hk
    | ⟨1, _⟩ => exact rhs_hidden_1 _ _)
  rw [el, er]

theorem lhs_outp_0 (i : S1024x1.Idx) (q : dot_S1024x128_S128x1_S1024x1_1_0_0_1_n_n.contr.Idx) :
    (dot_S1024x128_S128x1_S1024x1_1_0_0_1_n_n.lhsIdx i q 0).val = (i 0).val := by
  unfold DotDims.lhsIdx
  rw [dif_neg (show ¬(0 : Fin S1024x128.rank) ∈ dot_S1024x128_S128x1_S1024x1_1_0_0_1_n_n.lhsBatch by decide), dif_pos (show (0 : Fin S1024x128.rank) ∈ dot_S1024x128_S128x1_S1024x1_1_0_0_1_n_n.lhsNonContracting by decide)]
  rfl
theorem lhs_outp_1 (i : S1024x1.Idx) (q : dot_S1024x128_S128x1_S1024x1_1_0_0_1_n_n.contr.Idx) :
    (dot_S1024x128_S128x1_S1024x1_1_0_0_1_n_n.lhsIdx i q 1).val = (q ⟨0, by decide⟩).val :=
  dot_S1024x128_S128x1_S1024x1_1_0_0_1_n_n.lhsIdx_val_of_single rfl i q
theorem rhs_outp_0 (i : S1024x1.Idx) (q : dot_S1024x128_S128x1_S1024x1_1_0_0_1_n_n.contr.Idx) :
    (dot_S1024x128_S128x1_S1024x1_1_0_0_1_n_n.rhsIdx i q 0).val = (q ⟨0, by decide⟩).val :=
  dot_S1024x128_S128x1_S1024x1_1_0_0_1_n_n.rhsIdx_val_of_single rfl i q
theorem rhs_outp_1 (i : S1024x1.Idx) (q : dot_S1024x128_S128x1_S1024x1_1_0_0_1_n_n.contr.Idx) :
    (dot_S1024x128_S128x1_S1024x1_1_0_0_1_n_n.rhsIdx i q 1).val = (i 1).val := by
  unfold DotDims.rhsIdx
  rw [dif_neg (show ¬(1 : Fin S128x1.rank) ∈ dot_S1024x128_S128x1_S1024x1_1_0_0_1_n_n.rhsBatch by decide), dif_pos (show (1 : Fin S128x1.rank) ∈ dot_S1024x128_S128x1_S1024x1_1_0_0_1_n_n.rhsNonContracting by decide)]
  rfl

/-- The product into the zero accumulator, read at row `p`, column `j`: the sum over the 128 shared positions of the
    left operand's row `p` against the right operand's column `j`. -/
theorem outp_apply (l : FVec Ideal S1024x128 .bf16) (r : FVec Ideal S128x1 .bf16) (p : Fin 1024) (j : Fin 1) :
    matmul dot_S1024x128_S128x1_S1024x1_1_0_0_1_n_n none l r (constant (F := Ideal) S1024x1 .f32 0x00000000#32) (ix2 p j)
      = ∑ k : Fin 128, l (ix2 p k) * r (ix2 k j) := by
  simp only [matmul]
  rw [Ideal.matmul_constant_zero_apply, ← Equiv.sum_comp (ValueIdx.contrEquiv1 dot_S1024x128_S128x1_S1024x1_1_0_0_1_n_n 128 rfl rfl).symm]
  refine Finset.sum_congr rfl fun k _ => ?_
  have hk := ValueIdx.contrEquiv1_symm_val dot_S1024x128_S128x1_S1024x1_1_0_0_1_n_n 128 rfl rfl k
  have el : dot_S1024x128_S128x1_S1024x1_1_0_0_1_n_n.lhsIdx (ix2 p j) ((ValueIdx.contrEquiv1 dot_S1024x128_S128x1_S1024x1_1_0_0_1_n_n 128 rfl rfl).symm k) = ix2 p k := funext fun a => Fin.ext (by
    match a with
    | ⟨0, _⟩ => exact lhs_outp_0 _ _
    | ⟨1, _⟩ => exact (lhs_outp_1 _ _).trans hk)
  have er : dot_S1024x128_S128x1_S1024x1_1_0_0_1_n_n.rhsIdx (ix2 p j) ((ValueIdx.contrEquiv1 dot_S1024x128_S128x1_S1024x1_1_0_0_1_n_n 128 rfl rfl).symm k) = ix2 k j := funext fun a => Fin.ext (by
    match a with
    | ⟨0, _⟩ => exact (rhs_outp_0 _ _).trans hk
    | ⟨1, _⟩ => exact rhs_outp_1 _ _)
  rw [el, er]

/-! ## The layers -/

/-- A bias vector laid along every row of the chunk reads, at `(p, j)`, the bias at `j`. -/
theorem bias_row_apply (b : Vec Ideal S128 .f32) (p : Fin 1024) (j : Fin 128) :
    broadcastTo S1024x128 (shapeCast S1x128 b shapeCasts_S128_S1x128) broadcasts_S1x128_S1024x128 (ix2 p j) = b (ix1 j) := by
  rw [broadcastTo_1b_ab_apply, shapeCast_a_1a_apply]

/-- The last layer's single bias laid down the chunk's one column reads the bias everywhere. -/
theorem bias_one_apply (b : Vec Ideal S1 .f32) (p : Fin 1024) (z : Fin 1) :
    broadcastTo S1024x1 (shapeCast S1x1 b shapeCasts_S1_S1x1) broadcasts_S1x1_S1024x1 (ix2 p z) = b (ix1 (0 : Fin 1)) := by
  obtain rfl : z = 0 := Subsingleton.elim _ _
  rw [broadcastTo_1b_ab_apply, shapeCast_a_1a_apply]

/-- One dense layer with the rectifier, as the body spells it, read at `(p, j)`: the layer unit `dense` of row `p`. -/
theorem layer_apply (h : FVec Ideal S1024x128 .f32) (W : Vec Ideal S128x128 .f32) (b : Vec Ideal S128 .f32) (p : Fin 1024) (j : Fin 128) :
    maximumf (addf (matmul dot_S1024x128_S128x128_S1024x128_1_0_0_1_n_n none (truncf .bf16 h bitsLt_bf16_f32) (truncf .bf16 W bitsLt_bf16_f32)
        (constant (F := Ideal) S1024x128 .f32 0x00000000#32))
      (broadcastTo S1024x128 (shapeCast S1x128 b shapeCasts_S128_S1x128) broadcasts_S1x128_S1024x128))
      (broadcast S1024x128 (Scalar.ofBits (F := Ideal) .f32 0x00000000#32)) (ix2 p j)
    = dense (fun l => h (ix2 p l)) (fun l j => W (ix2 l j)) (fun j => b (ix1 j)) j := by
  rw [maximumf_apply, addf_apply, hidden_apply, bias_row_apply]
  rfl

/-! ## The chunk's result -/

/-- Entry `(p, 0)` of the chunk's result is the score of one edge from row `p` of the two tiles. -/
theorem pay_apply (v0 v2 : Vec Ideal S128x128 .f32) (v4 : Vec Ideal S128x1 .f32) (v6 v7 : Vec Ideal S128 .f32) (v8 : Vec Ideal S1 .f32)
    (v14 v17 : Vec Ideal S1024x128 .f32) (p : Fin 1024) (z : Fin 1) :
    k0_pay1 (F := Ideal) v0 v2 v4 v6 v7 v8 v14 v17 (ix2 p z)
      = edgeScore (fun l => v14 (ix2 p l)) (fun l => v17 (ix2 p l)) (fun l j => v0 (ix2 l j)) (fun j => v6 (ix1 j))
          (fun j k => v2 (ix2 j k)) (fun k => v7 (ix1 k)) (fun k => v4 (ix2 k (0 : Fin 1))) (v8 (ix1 (0 : Fin 1))) := by
  obtain rfl : z = 0 := Subsingleton.elim _ _
  unfold k0_pay1
  rw [addf_apply, outp_apply, bias_one_apply]
  unfold edgeScore
  refine congrArg (· + v8 (ix1 (0 : Fin 1))) (Finset.sum_congr rfl fun k _ => ?_)
  rw [truncf_apply, truncf_apply, layer_apply]
  refine congrArg (· * v4 (ix2 k (0 : Fin 1))) ?_
  refine congrArg (fun h => dense h (fun j k => v2 (ix2 j k)) (fun k => v7 (ix1 k)) k) (funext fun j => ?_)
  rw [layer_apply]
  refine congrArg (fun h => dense h (fun l j => v0 (ix2 l j)) (fun j => v6 (ix1 j)) j) (funext fun l => ?_)
  rw [mulf_apply, shapeCast_self, shapeCast_self]

end Cert.KernelIdeal.Tile

end
-- ==== Proof.KernelPoint.lean ====
/-
  What one grid point leaves in its output block.

  The body walks its 5120-edge block in five chunks of 1024 edges; chunk `k` loads rows `1024·k …` of the two input
  blocks and stores its 1024 results at the same rows of the output block. So whichever chunk wrote row `r`, what it
  wrote there is the score of the edge whose rows are row `r` of the two input blocks: all five stores are pieces of one
  function of the block index. The five pieces tile the block, hence the block holds that function everywhere.
-/
import proofs.«417885_j24257975287899_3_alg».proof.Proof.Gen.KernelIdeal.Value
import proofs.«417885_j24257975287899_3_alg».proof.Proof.KernelTile
import Idealize.ShloMosaic.Lib.Pipeline.Value

set_option maxRecDepth 16384

noncomputable section

namespace Cert.KernelIdeal.Point

open Cert.KernelIdeal Cert.KernelIdeal.Gen Idealize.ShloMosaic Idealize.ShloMosaic.TcCoe Idealize.ShloMosaic.ValueIdx Cert.EdgeDecoder
open Cert.KernelIdeal.Tile

/-- The block's contents as one function of the block index: entry `(r, 0)` is the score of the edge whose end-node rows
    are row `r` of the two input blocks. -/
def blockScores (x0 x1 : Vec Ideal S5120x128 .f32) (w1 : Vec Ideal S128x128 .f32) (b1 : Vec Ideal S128 .f32)
    (w2 : Vec Ideal S128x128 .f32) (b2 : Vec Ideal S128 .f32) (w3 : Vec Ideal S128x1 .f32) (b3 : Vec Ideal S1 .f32) :
    S5120x1.Idx → EReal :=
  fun y => edgeScore (fun l => x0 (ix2 (y 0) l)) (fun l => x1 (ix2 (y 0) l)) (fun l j => w1 (ix2 l j)) (fun j => b1 (ix1 j))
    (fun j k => w2 (ix2 j k)) (fun k => b2 (ix1 k)) (fun k => w3 (ix2 k (0 : Fin 1))) (b3 (ix1 (0 : Fin 1)))

/-! ## One chunk -/

/-- Chunk `k` makes one store: at its 1024 rows of the output block, the chunk's result of the weights and of the two
    input blocks read at the same 1024 rows. -/
theorem trip_piece {F : FTy → Type} [FloatOps F] (𝒱 : Variants) (c : Dev nD) (bd : Option 𝒱.V) (i : grid0.Coords) (arg1 : Memref sig .tc .vmem S5120x128 .f32) (harg1 : arg1.IsWhole) (arg2 : Memref sig .tc .vmem S5120x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x1 .f32) (harg7 : arg7.IsWhole) (arg8 : Memref sig .tc .vmem S1 .f32) (harg8 : arg8.IsWhole) (arg9 : Memref sig .tc .vmem S5120x1 .f32) (harg9 : arg9.IsWhole) (v0 : Vec F S128x128 .f32) (v2 : Vec F S128x128 .f32) (v4 : Vec F S128x1 .f32) (v6 : Vec F S128 .f32) (v7 : Vec F S128 .f32) (v8 : Vec F S1 .f32) (X_arg1 : BufTy.Contents (Elt F) arg1.view.ty) (X_arg2 : BufTy.Contents (Elt F) arg2.view.ty) (k : Fin k0_t1_loop.trips) :
    tripL_k0_t1 (F := F) 𝒱 c bd i arg1 harg1 arg2 harg2 arg3 harg3 arg4 harg4 arg5 harg5 arg6 harg6 arg7 harg7 arg8 harg8 arg9 harg9 v0 v2 v4 v6 v7 v8 X_arg1 X_arg2 k
      = [⟨Rect.unit (s := S5120x1) (k0_off2 k) S1024x1.size (k0_off2_inb k),
          k0_pay1 v0 v2 v4 v6 v7 v8
            (View.readAt (Elt F) arg1.view (Rect.unit (s := S5120x128) (k0_off1 k) S1024x128.size (k0_off1_inb k)).toLoadRect X_arg1)
            (View.readAt (Elt F) arg2.view (Rect.unit (s := S5120x128) (k0_off1 k) S1024x128.size (k0_off1_inb k)).toLoadRect X_arg2)⟩] := by
  unfold tripL_k0_t1 trip_k0_t1
  rfl

/-- A chunk's load of an input block, read at its row `p`, column `l`: the block's entry at the row where the chunk's
    store puts its own row `p`. -/
theorem tile_row (mr : Memref sig .tc .vmem S5120x128 .f32) (hm : mr.IsWhole) (X : Vec Ideal S5120x128 .f32)
    (k : Fin k0_t1_loop.trips) (p : Fin 1024) (z : Fin 1) (l : Fin 128) :
    View.readAt (Elt Ideal) mr.view (Rect.unit (s := S5120x128) (k0_off1 k) S1024x128.size (k0_off1_inb k)).toLoadRect (hm.unread X) (ix2 p l)
      = X (ix2 ((Rect.unit (s := S5120x1) (k0_off2 k) S1024x1.size (k0_off2_inb k)).emb (ix2 p z) 0) l) := by
  rw [View.readAt_eq_ld, hm.read_unread]
  show X _ = X _
  refine congrArg X (funext fun a => Fin.ext ?_)
  match a with
  | ⟨0, _⟩ => rfl
  | ⟨1, _⟩ => show 0 + 1 * l.val = l.val; omega

/-! ## All chunks -/

/-- Every store of the first `n` chunks is a piece of `blockScores`. -/
theorem pieces_agree (c : Dev nD) (i : grid0.Coords) (arg1 : Memref sig .tc .vmem S5120x128 .f32) (harg1 : arg1.IsWhole) (arg2 : Memref sig .tc .vmem S5120x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x1 .f32) (harg7 : arg7.IsWhole) (arg8 : Memref sig .tc .vmem S1 .f32) (harg8 : arg8.IsWhole) (arg9 : Memref sig .tc .vmem S5120x1 .f32) (harg9 : arg9.IsWhole)
    (v0 v2 : Vec Ideal S128x128 .f32) (v4 : Vec Ideal S128x1 .f32) (v6 v7 : Vec Ideal S128 .f32) (v8 : Vec Ideal S1 .f32)
    (x0 x1 : Vec Ideal S5120x128 .f32) :
    ∀ (n : Nat), n ≤ k0_t1_loop.trips →
      ∀ p ∈ pb_k0_t1 (F := Ideal) Variants.none c none i arg1 harg1 arg2 harg2 arg3 harg3 arg4 harg4 arg5 harg5 arg6 harg6 arg7 harg7 arg8 harg8 arg9 harg9 v0 v2 v4 v6 v7 v8 (harg1.unread x0) (harg2.unread x1) n,
        ∀ x : p.1.shape.Idx, p.2 x = blockScores x0 x1 v0 v6 v2 v7 v4 v8 (p.1.emb x)
  | 0, _ => by
    intro p hp
    exact absurd hp (by rw [pb_k0_t1.eq_1]; exact List.not_mem_nil)
  | n + 1, hn => by
    intro p hp x
    have hs := pb_k0_t1_succ (F := Ideal) Variants.none c none i arg1 harg1 arg2 harg2 arg3 harg3 arg4 harg4 arg5 harg5 arg6 harg6 arg7 harg7 arg8 harg8 arg9 harg9 v0 v2 v4 v6 v7 v8 (harg1.unread x0) (harg2.unread x1) ⟨n, hn⟩
    rw [show pb_k0_t1 (F := Ideal) Variants.none c none i arg1 harg1 arg2 harg2 arg3 harg3 arg4 harg4 arg5 harg5 arg6 harg6 arg7 harg7 arg8 harg8 arg9 harg9 v0 v2 v4 v6 v7 v8 (harg1.unread x0) (harg2.unread x1) (n + 1) = _ from hs, trip_piece] at hp
    rcases List.mem_append.mp hp with h | h
    · obtain rfl := List.mem_singleton.mp h
      obtain ⟨q, z, rfl⟩ : ∃ (q : Fin 1024) (z : Fin 1), x = ix2 q z := ⟨x 0, x 1, eq_ix2 x⟩
      refine (pay_apply v0 v2 v4 v6 v7 v8 _ _ q z).trans ?_
      unfold blockScores
      simp only [tile_row _ _ _ ⟨n, hn⟩ q z]
    · exact pieces_agree c i arg1 harg1 arg2 harg2 arg3 harg3 arg4 harg4 arg5 harg5 arg6 harg6 arg7 harg7 arg8 harg8 arg9 harg9 v0 v2 v4 v6 v7 v8 x0 x1 n (Nat.le_of_succ_le hn) p h x

/-! ## The block -/

/-- A load of a whole weight buffer reads its contents. -/
theorem whole_load {S : Shape} (mr : Memref sig .tc .vmem S .f32) (hm : mr.IsWhole) (X : Vec Ideal S .f32)
    {off : Fin S.rank → Nat} (hz : off = fun _ => 0) (inb : ∀ a, off a + S.size a ≤ S.size a) :
    View.readAt (Elt Ideal) mr.view (Rect.unit off S.size inb).toLoadRect (hm.unread X) = X := by
  rw [View.readAt_eq_ld, hm.read_unread, View.ld_unit_zero hz]

/-- After the body at a point, its output block holds `blockScores` of the point's input blocks. -/
theorem out0_eq (c : Dev nD) (i : grid0.Coords) (arg1 : Memref sig .tc .vmem S5120x128 .f32) (harg1 : arg1.IsWhole) (arg2 : Memref sig .tc .vmem S5120x128 .f32) (harg2 : arg2.IsWhole) (arg3 : Memref sig .tc .vmem S128x128 .f32) (harg3 : arg3.IsWhole) (arg4 : Memref sig .tc .vmem S128 .f32) (harg4 : arg4.IsWhole) (arg5 : Memref sig .tc .vmem S128x128 .f32) (harg5 : arg5.IsWhole) (arg6 : Memref sig .tc .vmem S128 .f32) (harg6 : arg6.IsWhole) (arg7 : Memref sig .tc .vmem S128x1 .f32) (harg7 : arg7.IsWhole) (arg8 : Memref sig .tc .vmem S1 .f32) (harg8 : arg8.IsWhole) (arg9 : Memref sig .tc .vmem S5120x1 .f32) (harg9 : arg9.IsWhole)
    (x0 x1 : Vec Ideal S5120x128 .f32) (x2 : Vec Ideal S128x128 .f32) (x3 : Vec Ideal S128 .f32) (x4 : Vec Ideal S128x128 .f32)
    (x5 : Vec Ideal S128 .f32) (x6 : Vec Ideal S128x1 .f32) (x7 : Vec Ideal S1 .f32) :
    out0_A_8 (F := Ideal) c i arg1 harg1 arg2 harg2 arg3 harg3 arg4 harg4 arg5 harg5 arg6 harg6 arg7 harg7 arg8 harg8 arg9 harg9 x0 x1 x2 x3 x4 x5 x6 x7 = blockScores x0 x1 x2 x3 x4 x5 x6 x7 := by
  have hz2 : (![0, 0] : Fin 2 → Nat) = fun _ => 0 := by funext a; fin_cases a <;> rfl
  have hz1 : (![0] : Fin 1 → Nat) = fun _ => 0 := by funext a; fin_cases a; rfl
  have hL : (kernelRun0_A (F := Ideal) c i arg1 harg1 arg2 harg2 arg3 harg3 arg4 harg4 arg5 harg5 arg6 harg6 arg7 harg7 arg8 harg8 arg9 harg9 x0 x1 x2 x3 x4 x5 x6 x7).1
      = pb_k0_t1 (F := Ideal) Variants.none c none i arg1 harg1 arg2 harg2 arg3 harg3 arg4 harg4 arg5 harg5 arg6 harg6 arg7 harg7 arg8 harg8 arg9 harg9 x2 x4 x6 x3 x5 x7 (harg1.unread x0) (harg2.unread x1) k0_t1_loop.trips := by
    unfold kernelRun0_A
    dsimp only
    rw [whole_load arg3 harg3 x2 hz2, whole_load arg5 harg5 x4 hz2, whole_load arg7 harg7 x6 hz2,
      whole_load arg4 harg4 x3 hz1, whole_load arg6 harg6 x5 hz1, whole_load arg8 harg8 x7 hz1]
  unfold out0_A_8
  rw [View.read_writes_eq_canon _ _ _ (cover0_A_8 c i arg1 harg1 arg2 harg2 arg3 harg3 arg4 harg4 arg5 harg5 arg6 harg6 arg7 harg7 arg8 harg8 arg9 harg9 x0 x1 x2 x3 x4 x5 x6 x7)]
  funext y
  refine View.canon_apply_of_pieces (blockScores x0 x1 x2 x3 x4 x5 x6 x7) _ ?_ y (cover0_A_8 c i arg1 harg1 arg2 harg2 arg3 harg3 arg4 harg4 arg5 harg5 arg6 harg6 arg7 harg7 arg8 harg8 arg9 harg9 x0 x1 x2 x3 x4 x5 x6 x7 y)
  intro p hp x
  rw [hL] at hp
  exact pieces_agree c i arg1 harg1 arg2 harg2 arg3 harg3 arg4 harg4 arg5 harg5 arg6 harg6 arg7 harg7 arg8 harg8 arg9 harg9 x2 x4 x6 x3 x5 x7 x0 x1 _ (Nat.le_refl _) p hp x

end Cert.KernelIdeal.Point

end
-- ==== Proof.KernelArray.lean ====
/-
  From the blocks to the whole result array.

  Grid point `t` stages rows `5120·t …` of the two gathered arrays and the whole of each weight array, and writes its
  5120 scores back to rows `5120·t …` of the result. Its block is therefore the restriction to those rows of ONE
  function of the whole arrays: entry `(e, 0)` is the score of edge `e` from row `e` of the two gathered arrays. The
  125 blocks tile the 640000 rows (row `e` lies in block `e / 5120`), so after the run the result array is that
  function everywhere.
-/
import proofs.«417885_j24257975287899_3_alg».proof.Proof.KernelPoint

set_option maxRecDepth 16384

noncomputable section

namespace Cert.KernelIdeal.Array

open Cert.KernelIdeal Cert.KernelIdeal.Gen Idealize.ShloMosaic Idealize.ShloMosaic.TcCoe Idealize.SL.Sem Idealize.ShloMosaic.ValueIdx
open Idealize.ShloMosaic.Pipeline (Dat)
open Cert.EdgeDecoder Cert.KernelIdeal.Point

variable (m : (ℓ : Loc nD τ sig) → Buf (Elt Ideal) ℓ)

/-- The result array as one function of the arrays the region finds. -/
def finalScores (c : Dev nD) : S640000x1.Idx → EReal :=
  scores (V m c main_v8) (V m c main_v15) (V m c main_arg3) (V m c main_arg4) (V m c main_arg5) (V m c main_arg6)
    (V m c main_arg7) (V m c main_arg8)

/-- A block entry and an array entry are the same score when the block's row is the array's row and the weights agree. -/
theorem block_eq_scores (X0 X1 : Vec Ideal S5120x128 .f32) (W1 : Vec Ideal S128x128 .f32) (B1 : Vec Ideal S128 .f32)
    (W2 : Vec Ideal S128x128 .f32) (B2 : Vec Ideal S128 .f32) (W3 : Vec Ideal S128x1 .f32) (B3 : Vec Ideal S1 .f32)
    (GS GD : Vec Ideal S640000x128 .f32) (w1 : Vec Ideal S128x128 .f32) (b1 : Vec Ideal S128 .f32)
    (w2 : Vec Ideal S128x128 .f32) (b2 : Vec Ideal S128 .f32) (w3 : Vec Ideal S128x1 .f32) (b3 : Vec Ideal S1 .f32)
    (y : S5120x1.Idx) (i : S640000x1.Idx)
    (h0 : ∀ l : Fin 128, X0 (ix2 (y 0) l) = GS (ix2 (i 0) l)) (h1 : ∀ l : Fin 128, X1 (ix2 (y 0) l) = GD (ix2 (i 0) l))
    (hW1 : ∀ l j : Fin 128, W1 (ix2 l j) = w1 (ix2 l j)) (hB1 : ∀ j : Fin 128, B1 (ix1 j) = b1 (ix1 j))
    (hW2 : ∀ l j : Fin 128, W2 (ix2 l j) = w2 (ix2 l j)) (hB2 : ∀ j : Fin 128, B2 (ix1 j) = b2 (ix1 j))
    (hW3 : ∀ (k : Fin 128) (z : Fin 1), W3 (ix2 k z) = w3 (ix2 k z)) (hB3 : ∀ z : Fin 1, B3 (ix1 z) = b3 (ix1 z)) :
    blockScores X0 X1 W1 B1 W2 B2 W3 B3 y = scores GS GD w1 b1 w2 b2 w3 b3 i := by
  unfold blockScores scores
  simp only [h0, h1, hW1, hB1, hW2, hB2, hW3, hB3]

/-- The printed index maps over the 125 grid points: the two gathered arrays' blocks move with the result's block, the
    weights' blocks stay at the origin, and the result's block index is the point. -/
theorem idx_facts : ∀ t : Fin cfg0.N,
    win0_0.index t (0 : Fin 2) = win0_8.index t (0 : Fin 2) ∧ win0_0.index t (1 : Fin 2) = 0
    ∧ win0_1.index t (0 : Fin 2) = win0_8.index t (0 : Fin 2) ∧ win0_1.index t (1 : Fin 2) = 0
    ∧ win0_2.index t (0 : Fin 2) = 0 ∧ win0_2.index t (1 : Fin 2) = 0
    ∧ win0_3.index t (0 : Fin 1) = 0
    ∧ win0_4.index t (0 : Fin 2) = 0 ∧ win0_4.index t (1 : Fin 2) = 0
    ∧ win0_5.index t (0 : Fin 1) = 0
    ∧ win0_6.index t (0 : Fin 2) = 0 ∧ win0_6.index t (1 : Fin 2) = 0
    ∧ win0_7.index t (0 : Fin 1) = 0
    ∧ win0_8.index t (1 : Fin 2) = 0 ∧ win0_8.index t (0 : Fin 2) = t.val :=
  (by decide +kernel : ∀ t : Fin grid0.N, _)

set_option maxHeartbeats 1600000 in
/-- WHAT POINT `t` WRITES BACK is block `t` of `finalScores`. -/
theorem flushed_eq (c : Dev nD) (t : Fin cfg0.N) :
    (dats m 0 c).flushed 8 t = ((cfg0.win 8).blk t).view.read (Elt Ideal) (finalScores m c) := by
  rw [Cert.KernelIdeal.Value.flushed8_A]
  rw [out0_eq c (grid0.coords t) (ms0_0 t) (hs0_0 t) (ms0_1 t) (hs0_1 t) (ms0_2 t) (hs0_2 t) (ms0_3 t) (hs0_3 t) (ms0_4 t) (hs0_4 t) (ms0_5 t) (hs0_5 t) (ms0_6 t) (hs0_6 t) (ms0_7 t) (hs0_7 t) (ms0_8 t) (hs0_8 t) (iblk m c 0 t) (iblk m c 1 t) (iblk m c 2 t) (iblk m c 3 t) (iblk m c 4 t) (iblk m c 5 t) (iblk m c 6 t) (iblk m c 7 t)]
  obtain ⟨e00, e01, e10, e11, e20, e21, e30, e40, e41, e50, e60, e61, e70, e81, e80⟩ := idx_facts t
  funext j
  show blockScores (iblk m c 0 t) (iblk m c 1 t) (iblk m c 2 t) (iblk m c 3 t) (iblk m c 4 t) (iblk m c 5 t) (iblk m c 6 t) (iblk m c 7 t) j = finalScores m c (((cfg0.win 8).blk t).view.emb j)
  unfold finalScores
  refine block_eq_scores (iblk m c 0 t) (iblk m c 1 t) (iblk m c 2 t) (iblk m c 3 t) (iblk m c 4 t) (iblk m c 5 t) (iblk m c 6 t) (iblk m c 7 t) (V m c main_v8) (V m c main_v15) (V m c main_arg3) (V m c main_arg4) (V m c main_arg5)
    (V m c main_arg6) (V m c main_arg7) (V m c main_arg8) j (((cfg0.win 8).blk t).view.emb j) ?_ ?_ ?_ ?_ ?_ ?_ ?_ ?_
  · intro l
    show V m c main_v8 (((cfg0.win 0).blk t).view.emb (ix2 (j 0) l)) = V m c main_v8 (ix2 ((((cfg0.win 8).blk t).view.emb j) 0) l)
    refine congrArg (V m c main_v8) (funext fun a => Fin.ext ?_)
    match a with
    | ⟨0, _⟩ => show win0_0.index t (0 : Fin 2) * 5120 + 1 * (j 0).val = win0_8.index t (0 : Fin 2) * 5120 + 1 * (j 0).val; omega
    | ⟨1, _⟩ => show win0_0.index t (1 : Fin 2) * 128 + 1 * l.val = l.val; omega
  · intro l
    show V m c main_v15 (((cfg0.win 1).blk t).view.emb (ix2 (j 0) l)) = V m c main_v15 (ix2 ((((cfg0.win 8).blk t).view.emb j) 0) l)
    refine congrArg (V m c main_v15) (funext fun a => Fin.ext ?_)
    match a with
    | ⟨0, _⟩ => show win0_1.index t (0 : Fin 2) * 5120 + 1 * (j 0).val = win0_8.index t (0 : Fin 2) * 5120 + 1 * (j 0).val; omega
    | ⟨1, _⟩ => show win0_1.index t (1 : Fin 2) * 128 + 1 * l.val = l.val; omega
  · intro l k
    show V m c main_arg3 (((cfg0.win 2).blk t).view.emb (ix2 l k)) = V m c main_arg3 (ix2 l k)
    refine congrArg (V m c main_arg3) (funext fun a => Fin.ext ?_)
    match a with
    | ⟨0, _⟩ => show win0_2.index t (0 : Fin 2) * 128 + 1 * l.val = l.val; omega
    | ⟨1, _⟩ => show win0_2.index t (1 : Fin 2) * 128 + 1 * k.val = k.val; omega
  · intro k
    show V m c main_arg4 (((cfg0.win 3).blk t).view.emb (ix1 k)) = V m c main_arg4 (ix1 k)
    refine congrArg (V m c main_arg4) (funext fun a => Fin.ext ?_)
    match a with
    | ⟨0, _⟩ => show win0_3.index t (0 : Fin 1) * 128 + 1 * k.val = k.val; omega
  · intro l k
    show V m c main_arg5 (((cfg0.win 4).blk t).view.emb (ix2 l k)) = V m c main_arg5 (ix2 l k)
    refine congrArg (V m c main_arg5) (funext fun a => Fin.ext ?_)
    match a with
    | ⟨0, _⟩ => show win0_4.index t (0 : Fin 2) * 128 + 1 * l.val = l.val; omega
    | ⟨1, _⟩ => show win0_4.index t (1 : Fin 2) * 128 + 1 * k.val = k.val; omega
  · intro k
    show V m c main_arg6 (((cfg0.win 5).blk t).view.emb (ix1 k)) = V m c main_arg6 (ix1 k)
    refine congrArg (V m c main_arg6) (funext fun a => Fin.ext ?_)
    match a with
    | ⟨0, _⟩ => show win0_5.index t (0 : Fin 1) * 128 + 1 * k.val = k.val; omega
  · intro k z
    show V m c main_arg7 (((cfg0.win 6).blk t).view.emb (ix2 k z)) = V m c main_arg7 (ix2 k z)
    refine congrArg (V m c main_arg7) (funext fun a => Fin.ext ?_)
    match a with
    | ⟨0, _⟩ => show win0_6.index t (0 : Fin 2) * 128 + 1 * k.val = k.val; omega
    | ⟨1, _⟩ => show win0_6.index t (1 : Fin 2) * 1 + 1 * z.val = z.val; omega
  · intro z
    show V m c main_arg8 (((cfg0.win 7).blk t).view.emb (ix1 z)) = V m c main_arg8 (ix1 z)
    refine congrArg (V m c main_arg8) (funext fun a => Fin.ext ?_)
    match a with
    | ⟨0, _⟩ => show win0_7.index t (0 : Fin 1) * 1 + 1 * z.val = z.val; omega

/-- An index of the result array is in point `t`'s block iff each coordinate is in the block's range on its axis. -/
theorem mem_blk (t : Fin cfg0.N) (i : S640000x1.Idx) :
    i ∈ ((cfg0.win 8).blk t).view.set ↔ ∀ a : Fin 2, win0_8.index t a * S5120x1.size a ≤ (i a).val ∧ (i a).val < win0_8.index t a * S5120x1.size a + S5120x1.size a := by
  show i ∈ ((View.whole main_v16).slice (win0_8.rect t)).set ↔ _
  rw [View.set_slice_whole, Rect.mem_set_unit]
  exact Iff.rfl

/-- Every row of the result array lies in some point's block: row `e` in block `e / 5120`. -/
theorem cover (i : S640000x1.Idx) : ∃ t : Fin cfg0.N, (cfg0.win 8).flush t = true ∧ i ∈ ((cfg0.win 8).blk t).view.set := by
  have hi0 : (i 0).val < 640000 := (i 0).isLt
  have hi1 : (i 1).val < 1 := (i 1).isLt
  have hN : cfg0.N = 125 := N_0
  let t : Fin cfg0.N := ⟨(i 0).val / 5120, by rw [hN]; omega⟩
  obtain ⟨-, -, -, -, -, -, -, -, -, -, -, -, -, e81, e80⟩ := idx_facts t
  have e80' : win0_8.index t (0 : Fin 2) = (i 0).val / 5120 := e80
  refine ⟨t, flush0_8 t, ?_⟩
  rw [mem_blk]
  intro a
  match a with
  | ⟨0, _⟩ => show win0_8.index t (0 : Fin 2) * 5120 ≤ (i 0).val ∧ (i 0).val < win0_8.index t (0 : Fin 2) * 5120 + 5120; omega
  | ⟨1, _⟩ => show win0_8.index t (1 : Fin 2) * 1 ≤ (i 1).val ∧ (i 1).val < win0_8.index t (1 : Fin 2) * 1 + 1; omega

/-- THE RESULT ARRAY after the run is `finalScores`. -/
theorem final (c : Dev nD) : (dats m 0 c).arrAt 8 cfg0.N = finalScores m c :=
  (dats m 0 c).arrAt_eq_of_cover 8 (finalScores m c) (fun t _ => flushed_eq m c t) cover

end Cert.KernelIdeal.Array

end
-- ==== Proof.IndexRange.lean ====
/-
  An index already inside the table is left alone by the kernel's guard.

  The kernel clamps each edge's node index into `[0, 99999]` before it reads the feature table, as
  `min 99999 (max 0 w)` on signed 32-bit words. For a word that is at least 0 and below 100000 as a signed number
  both comparisons fall the same way: `w < 0` is false, so the maximum is `w`; `99999 < w` is false, so the minimum
  is `w`. Hence on such inputs the clamped index vector is the index vector itself, and what the kernel reads from the
  table is what an unguarded read would.
-/
import Idealize.ShloMosaic.PureOps
import Idealize.ShloMosaic.Lib.StableHlo.Predicate

namespace Cert.EdgeDecoder

open Idealize.ShloMosaic Idealize.ShloMosaic.StableHlo.Predicate

/-- One word: from `0 ≤ w` and `w < 100000` (signed), `min 99999 (max 0 w) = w`. -/
theorem clip_word (w : BitVec 32) (h0 : IntOp.cmpi .sge w 0#32 = 1#1) (h1 : IntOp.cmpi .slt w 100000#32 = 1#1) :
    IntOp.minsi 99999#32 (IntOp.maxsi 0#32 w) = w := by
  have a0 : (0#32 : BitVec 32).sle w = true := by
    have := h0; unfold IntOp.cmpi at this; exact (ofBool_eq_one_iff _).mp this
  have a1 : w.slt 100000#32 = true := by
    have := h1; unfold IntOp.cmpi at this; exact (ofBool_eq_one_iff _).mp this
  have z : (0#32 : BitVec 32).toInt = 0 := by decide
  have n : (100000#32 : BitVec 32).toInt = 100000 := by decide
  have n' : (99999#32 : BitVec 32).toInt = 99999 := by decide
  have lo : 0 ≤ w.toInt := by
    have := a0; simp only [BitVec.sle, z, decide_eq_true_eq] at this; exact this
  have hi : w.toInt < 100000 := by
    have := a1; simp only [BitVec.slt, n, decide_eq_true_eq] at this; exact this
  have hmax : IntOp.maxsi 0#32 w = w := by
    unfold IntOp.maxsi
    rw [if_neg]
    simp only [BitVec.slt, z, decide_eq_true_eq]; omega
  rw [hmax]
  unfold IntOp.minsi
  rw [if_neg]
  simp only [BitVec.slt, n', decide_eq_true_eq]; omega

/-- The whole index vector: where every entry is in `[0, 100000)`, the guarded vector is the vector. -/
theorem clip_vec (hb : (⟨0, ![]⟩ : Shape).BroadcastsInDim (⟨1, ![640000]⟩ : Shape) (![] : Fin 0 → Fin 1))
    (idx : IVec (⟨1, ![640000]⟩ : Shape) 32)
    (h0 : ∀ i, IntOp.cmpi .sge (idx i) 0#32 = 1#1) (h1 : ∀ i, IntOp.cmpi .slt (idx i) 100000#32 = 1#1) :
    minsi (broadcastInDim (⟨1, ![640000]⟩ : Shape) ![] hb (constantI (⟨0, ![]⟩ : Shape) 32 99999#32))
      (maxsi (broadcastInDim (⟨1, ![640000]⟩ : Shape) ![] hb (constantI (⟨0, ![]⟩ : Shape) 32 0#32)) idx) = idx := by
  funext i
  exact clip_word (idx i) (h0 i) (h1 i)

end Cert.EdgeDecoder
-- ==== Proof.KernelHost.lean ====
/-
  What the kernel's two gathered arrays are.

  Before the pallas_call the kernel's @main clamps each index vector into `[0, 99999]`, then does exactly what the
  reference does with its own index vector: an index below zero is moved up by 100000, the vector becomes a column of
  start indices, and row `e` of the result is the table's row at start index `e`. So each gathered array is the
  reference's row read, applied to the clamped vector; and where every index already lies in `[0, 100000)` the clamp
  does nothing and the two programs read the same rows.
-/
import proofs.«417885_j24257975287899_3_alg».proof.Proof.Gen.KernelIdeal.Frame
import proofs.«417885_j24257975287899_3_alg».proof.Proof.IndexRange
import Idealize.ShloMosaic.Lib.StableHlo.Run
import Idealize.ShloMosaic.PureOps.Ideal

set_option maxRecDepth 16384

noncomputable section

namespace Cert.KernelIdeal.HostPrefix

open Cert.KernelIdeal Cert.KernelIdeal.Gen Idealize.ShloMosaic Idealize.ShloMosaic.TcCoe Idealize.SL.Sem Idealize.ShloMosaic.StableHlo
open Cert.EdgeDecoder

variable (m : (ℓ : Loc nD τ sig) → Buf (Elt Ideal) ℓ)

/-- jnp's `x[idx]` as both programs print it: an index below zero moved up by the table's 100000 rows, then the row read
    at each start index. -/
def rowsOf (x : (⟨S100000x128, .f32⟩ : BufTy).Contents (Elt Ideal)) (idx : (⟨S640000, .i32⟩ : BufTy).Contents (Elt Ideal)) :
    (⟨S640000x128, .f32⟩ : BufTy).Contents (Elt Ideal) :=
  Host.gather gather_S100000x128_S640000x1_S640000x128_1_0_n_n_0_1_1128 x
    (broadcastInDim S640000x1 ![0] bcast_S640000_S640000x1_0
      (select (cmpi .slt idx (broadcastInDim S640000 ![] bcast_S_S640000 (constantI S_ 32 0#32)))
        (addi idx (broadcastInDim S640000 ![] bcast_S_S640000 (constantI S_ 32 100000#32))) idx))

/-- The kernel's guard on an index vector: `min 99999 (max 0 idx)`, entry by entry. -/
def clipped (idx : (⟨S640000, .i32⟩ : BufTy).Contents (Elt Ideal)) : (⟨S640000, .i32⟩ : BufTy).Contents (Elt Ideal) :=
  minsi (broadcastInDim S640000 ![] bcast_S_S640000 (constantI S_ 32 99999#32))
    (maxsi (broadcastInDim S640000 ![] bcast_S_S640000 (constantI S_ 32 0#32)) idx)

set_option maxHeartbeats 2000000 in
/-- The array the first input window stages: the rows of the table at the clamped source indices. -/
theorem V_src_rows (c : Dev nD) :
    (V m c main_v8 : S640000x128.Idx → Elt Ideal .f32)
      = rowsOf (m ((c : Thread nD τ).loc main_arg0)) (clipped (m ((c : Thread nD τ).loc main_arg1))) := by
  dsimp only [V]
  simp only [hostOps0, hostOps0_1, hostOps0_2, hostOps0_3, hostOps0_4, List.flatten_cons, List.flatten_nil, List.append_nil, List.cons_append, List.nil_append]
  after_results_simp
  rfl

set_option maxHeartbeats 2000000 in
/-- The array the second input window stages: the rows at the clamped destination indices. -/
theorem V_dst_rows (c : Dev nD) :
    (V m c main_v15 : S640000x128.Idx → Elt Ideal .f32)
      = rowsOf (m ((c : Thread nD τ).loc main_arg0)) (clipped (m ((c : Thread nD τ).loc main_arg2))) := by
  dsimp only [V]
  simp only [hostOps0, hostOps0_1, hostOps0_2, hostOps0_3, hostOps0_4, List.flatten_cons, List.flatten_nil, List.append_nil, List.cons_append, List.nil_append]
  after_results_simp
  rfl

/-- Where every index is in `[0, 100000)` the guard is the identity. -/
theorem clipped_eq (idx : (⟨S640000, .i32⟩ : BufTy).Contents (Elt Ideal))
    (h0 : ∀ i, IntOp.cmpi .sge (idx i) 0#32 = 1#1) (h1 : ∀ i, IntOp.cmpi .slt (idx i) 100000#32 = 1#1) : clipped idx = idx :=
  clip_vec bcast_S_S640000 idx h0 h1

end Cert.KernelIdeal.HostPrefix

end
-- ==== Proof.RefScores.lean ====
/-
  The reference's result is the specification.

  After its two gathers the reference multiplies the gathered arrays entry by entry and applies the three layers to all
  640000 rows at once. Read at an index, each stage depends on one row only: a matrix product at `(e, j)` is the sum
  over the 128 shared positions of row `e` against column `j`, a bias is laid along the rows, the rectifier acts entry by
  entry. So entry `(e, 0)` of its result is the score of edge `e` from row `e` of the two gathered arrays.
-/
import proofs.«417885_j24257975287899_3_alg».proof.Proof.Gen.ReferenceIdeal.Read
import proofs.«417885_j24257975287899_3_alg».proof.Proof.Spec

noncomputable section

namespace Cert.ReferenceIdeal.Scores

open Cert.ReferenceIdeal Cert.ReferenceIdeal.Gen Cert.ReferenceIdeal.Read Idealize.ShloMosaic Idealize.ShloMosaic.ValueIdx Cert.EdgeDecoder

/-! ## Which entries each product reads -/

theorem lidx15 (e : Fin 640000) (j k : Fin 128) : lidx_main_v15 (ix2 e j) k = ix2 e k :=
  funext fun a => Fin.ext (by match a with | ⟨0, _⟩ => rfl | ⟨1, _⟩ => rfl)
theorem ridx15 (e : Fin 640000) (j k : Fin 128) : ridx_main_v15 (ix2 e j) k = ix2 k j :=
  funext fun a => Fin.ext (by match a with | ⟨0, _⟩ => rfl | ⟨1, _⟩ => rfl)
theorem lidx20 (e : Fin 640000) (j k : Fin 128) : lidx_main_v20 (ix2 e j) k = ix2 e k :=
  funext fun a => Fin.ext (by match a with | ⟨0, _⟩ => rfl | ⟨1, _⟩ => rfl)
theorem ridx20 (e : Fin 640000) (j k : Fin 128) : ridx_main_v20 (ix2 e j) k = ix2 k j :=
  funext fun a => Fin.ext (by match a with | ⟨0, _⟩ => rfl | ⟨1, _⟩ => rfl)
theorem lidx25 (e : Fin 640000) (z : Fin 1) (k : Fin 128) : lidx_main_v25 (ix2 e z) k = ix2 e k :=
  funext fun a => Fin.ext (by match a with | ⟨0, _⟩ => rfl | ⟨1, _⟩ => rfl)
theorem ridx25 (e : Fin 640000) (z : Fin 1) (k : Fin 128) : ridx_main_v25 (ix2 e z) k = ix2 k z :=
  funext fun a => Fin.ext (by match a with | ⟨0, _⟩ => rfl | ⟨1, _⟩ => rfl)

section
variable (x0 : (⟨S100000x128, .f32⟩ : BufTy).Contents (Elt Ideal)) (x1 x2 : (⟨S640000, .i32⟩ : BufTy).Contents (Elt Ideal))
  (x3 : (⟨S128x128, .f32⟩ : BufTy).Contents (Elt Ideal)) (x4 : (⟨S128, .f32⟩ : BufTy).Contents (Elt Ideal))
  (x5 : (⟨S128x128, .f32⟩ : BufTy).Contents (Elt Ideal)) (x6 : (⟨S128, .f32⟩ : BufTy).Contents (Elt Ideal))
  (x7 : (⟨S128x1, .f32⟩ : BufTy).Contents (Elt Ideal)) (x8 : (⟨S1, .f32⟩ : BufTy).Contents (Elt Ideal))

/-! ## The layers, one entry at a time -/

/-- The first layer's bias, laid along every row. -/
theorem bias1 (e : Fin 640000) (j : Fin 128) : val_main_v17 (F := Ideal) x4 (ix2 e j) = x4 (ix1 j) := by
  rw [val_main_v17_apply, val_main_v16_apply]
  exact congrArg x4 (funext fun a => Fin.ext (by match a with | ⟨0, _⟩ => rfl))

/-- The second layer's bias, laid along every row. -/
theorem bias2 (e : Fin 640000) (j : Fin 128) : val_main_v22 (F := Ideal) x6 (ix2 e j) = x6 (ix1 j) := by
  rw [val_main_v22_apply, val_main_v21_apply]
  exact congrArg x6 (funext fun a => Fin.ext (by match a with | ⟨0, _⟩ => rfl))

/-- The last layer's one bias, everywhere. -/
theorem bias3 (e : Fin 640000) (z : Fin 1) : val_main_v27 (F := Ideal) x8 (ix2 e z) = x8 (ix1 (0 : Fin 1)) := by
  rw [val_main_v27_apply, val_main_v26_apply]
  exact congrArg x8 (funext fun a => Fin.ext (by match a with | ⟨0, _⟩ => rfl))

/-- After the first layer and its rectifier: unit `j` of edge `e`. -/
theorem hidden1 (e : Fin 640000) (j : Fin 128) :
    val_main_v19 (F := Ideal) x0 x1 x2 x3 x4 (ix2 e j)
      = dense (fun l => val_main_v6 (F := Ideal) x0 x1 (ix2 e l) * val_main_v13 (F := Ideal) x0 x2 (ix2 e l))
          (fun l j => x3 (ix2 l j)) (fun j => x4 (ix1 j)) j := by
  rw [val_main_v19_apply, val_main_v18_apply, val_main_v15_apply, bias1, val_main_call0_v0_apply, val_main_call0_cst_apply]
  simp only [lidx15, ridx15, val_main_v14_apply]
  rfl

/-- After the second layer and its rectifier. -/
theorem hidden2 (e : Fin 640000) (k : Fin 128) :
    val_main_v24 (F := Ideal) x0 x1 x2 x3 x4 x5 x6 (ix2 e k)
      = dense (dense (fun l => val_main_v6 (F := Ideal) x0 x1 (ix2 e l) * val_main_v13 (F := Ideal) x0 x2 (ix2 e l))
          (fun l j => x3 (ix2 l j)) (fun j => x4 (ix1 j))) (fun j k => x5 (ix2 j k)) (fun k => x6 (ix1 k)) k := by
  rw [val_main_v24_apply, val_main_v23_apply, val_main_v20_apply, bias2, val_main_call1_v0_apply, val_main_call1_cst_apply]
  simp only [lidx20, ridx20, hidden1]
  rfl

/-- The reference's result array is `scores` of its two gathered arrays and the weights. -/
theorem result_eq :
    val_main_v28 (F := Ideal) x0 x1 x2 x3 x4 x5 x6 x7 x8
      = scores (val_main_v6 (F := Ideal) x0 x1) (val_main_v13 (F := Ideal) x0 x2) x3 x4 x5 x6 x7 x8 := by
  funext i
  obtain ⟨e, z, rfl⟩ : ∃ (e : Fin 640000) (z : Fin 1), i = ix2 e z := ⟨i 0, i 1, eq_ix2 i⟩
  obtain rfl : z = 0 := Subsingleton.elim _ _
  rw [val_main_v28_apply, val_main_v25_apply, bias3]
  simp only [lidx25, ridx25, hidden2]
  rfl

end

end Cert.ReferenceIdeal.Scores

end
-- ==== Proof.PreRange.lean ====
/-
  What the added precondition says of the two index vectors.

  The precondition ends in four `all`s folded into the running conjunction: every source index is at least 0, every
  source index is below 100000, and the same for the destination indices. Each `all` is a reduction by `and` from 1 into
  a result of one index, so where the whole predicate is 1 every compared entry is 1: each index, read as a signed
  32-bit word, lies in `[0, 100000)`, the rows of the feature table.
-/
import proofs.«417885_j24257975287899_3_alg».proof.Pre_finite_inputs
import Idealize.ShloMosaic.Lib.ReduceAll

namespace Cert.EdgeDecoder

open Idealize.ShloMosaic Cert.Pre_finite_inputs

/-- A shape of rank 0 has one index. -/
instance scalarIdxSubsingleton : Subsingleton Cert.Pre_finite_inputs.S_.Idx := ⟨fun a b => funext fun d => d.elim0⟩

/-- From the printed precondition: both index vectors have every entry in `[0, 100000)` as signed words. -/
theorem range_of_pre [Cert.Pre_finite_inputs.Facts] {F : FTy → Type} [FloatOps F]
    (a0 : FVec F S100000x128 .f32) (a1 a2 : IVec S640000 32) (a3 : FVec F S128x128 .f32) (a4 : FVec F S128 .f32)
    (a5 : FVec F S128x128 .f32) (a6 : FVec F S128 .f32) (a7 : FVec F S128x1 .f32) (a8 : FVec F S1 .f32)
    (h : Cert.Pre_finite_inputs.fn (F := F) a0 a1 a2 a3 a4 a5 a6 a7 a8 = fun _ => 1#1) :
    (∀ i, IntOp.cmpi .sge (a1 i) 0#32 = 1#1) ∧ (∀ i, IntOp.cmpi .slt (a1 i) 100000#32 = 1#1)
      ∧ (∀ i, IntOp.cmpi .sge (a2 i) 0#32 = 1#1) ∧ (∀ i, IntOp.cmpi .slt (a2 i) 100000#32 = 1#1) := by
  have h0 := congrFun h (fun a => a.elim0)
  unfold Cert.Pre_finite_inputs.fn Cert.Pre_finite_inputs.fn_part1 Cert.Pre_finite_inputs.fn_part2 at h0
  dsimp only at h0
  obtain ⟨h45, h48⟩ := IntOp.andi_eq_one.mp h0
  obtain ⟨h41, h44⟩ := IntOp.andi_eq_one.mp h45
  obtain ⟨h37, h40⟩ := IntOp.andi_eq_one.mp h41
  obtain ⟨-, h36⟩ := IntOp.andi_eq_one.mp h37
  exact ⟨fun i => Host.reduce_andi_all _ _ _ _ _ h36 i, fun i => Host.reduce_andi_all _ _ _ _ _ h40 i,
    fun i => Host.reduce_andi_all _ _ _ _ _ h44 i, fun i => Host.reduce_andi_all _ _ _ _ _ h48 i⟩

end Cert.EdgeDecoder
-- ==== Proof.lean ====
/-
  The edge decoder against its jnp reference, over the extended reals.

  Both programs score each of 640000 edges by a three-layer perceptron of the elementwise product of the feature rows
  of the edge's two end nodes. The reference gathers the rows with `x[src]`, `x[dst]` and applies the layers to all edges
  at once. The kernel first clamps each index into `[0, 99999]`, gathers in the same way, and runs the layers in a
  pipelined call over 125 blocks of 5120 edges, each block in five chunks of 1024.

  Read at the extended reals a change of float format is the identity and a matrix product into a zero accumulator is
  the plain sum, so the layers are the same function of the gathered rows on both sides and no algebraic law is used;
  the finiteness of the float inputs is never opened. What differs is the clamp. On an index in `(-100000, 0)` the
  reference reads the row counted from the end while the kernel reads row 0, so the claim is stated under the
  precondition that every index lies in `[0, 100000)`, the rows of the table; there the clamp is the identity.

  The frames are the generated ones (the reference's from its generated run). `preserves` has no entry. For `algebraic`
  the common value is `finalScores`: entry `(e, 0)` is the score of edge `e` from row `e` of the two gathered arrays.
-/
import proofs.«417885_j24257975287899_3_alg».proof.Defs
import proofs.«417885_j24257975287899_3_alg».proof.Proof.Gen.Kernel
import proofs.«417885_j24257975287899_3_alg».proof.Proof.Gen.Kernel.Skeleton
import proofs.«417885_j24257975287899_3_alg».proof.Proof.Gen.Kernel.Loops
import proofs.«417885_j24257975287899_3_alg».proof.Proof.Gen.Kernel.Launch
import proofs.«417885_j24257975287899_3_alg».proof.Proof.Gen.Kernel.Points
import proofs.«417885_j24257975287899_3_alg».proof.Proof.Gen.Kernel.Frame
import proofs.«417885_j24257975287899_3_alg».proof.Proof.Gen.KernelIdeal
import proofs.«417885_j24257975287899_3_alg».proof.Proof.Gen.KernelIdeal.Skeleton
import proofs.«417885_j24257975287899_3_alg».proof.Proof.Gen.KernelIdeal.Loops
import proofs.«417885_j24257975287899_3_alg».proof.Proof.Gen.KernelIdeal.Launch
import proofs.«417885_j24257975287899_3_alg».proof.Proof.Gen.KernelIdeal.Points
import proofs.«417885_j24257975287899_3_alg».proof.Proof.Gen.KernelIdeal.Frame
import proofs.«417885_j24257975287899_3_alg».proof.Proof.Gen.ReferenceIdeal
import proofs.«417885_j24257975287899_3_alg».proof.Proof.Gen.Pre_finite_inputs
import proofs.«417885_j24257975287899_3_alg».proof.Proof.Gen.KernelIdeal.Value
import proofs.«417885_j24257975287899_3_alg».proof.Proof.Gen.ReferenceIdeal.Run
import proofs.«417885_j24257975287899_3_alg».proof.Proof.Gen.ReferenceIdeal.Read
import proofs.«417885_j24257975287899_3_alg».proof.Proof.KernelArray
import proofs.«417885_j24257975287899_3_alg».proof.Proof.KernelHost
import proofs.«417885_j24257975287899_3_alg».proof.Proof.RefScores
import proofs.«417885_j24257975287899_3_alg».proof.Proof.PreRange
import Idealize.ShloMosaic.Adequacy
import Idealize.ShloMosaic.Init

noncomputable section

namespace Cert.Proof

open Idealize.ShloMosaic Idealize.ShloMosaic.TcCoe Idealize.SL.Sem

/-- The kernel's row read and the reference's are one function of the table and the index vector: the same
    operations, printed once in each program. -/
theorem rows_src (x : (⟨Cert.ReferenceIdeal.S100000x128, .f32⟩ : BufTy).Contents (Elt Ideal))
    (idx : (⟨Cert.ReferenceIdeal.S640000, .i32⟩ : BufTy).Contents (Elt Ideal)) :
    Cert.KernelIdeal.HostPrefix.rowsOf x idx = Cert.ReferenceIdeal.Read.val_main_v6 (F := Ideal) x idx := rfl

theorem rows_dst (x : (⟨Cert.ReferenceIdeal.S100000x128, .f32⟩ : BufTy).Contents (Elt Ideal))
    (idx : (⟨Cert.ReferenceIdeal.S640000, .i32⟩ : BufTy).Contents (Elt Ideal)) :
    Cert.KernelIdeal.HostPrefix.rowsOf x idx = Cert.ReferenceIdeal.Read.val_main_v13 (F := Ideal) x idx := rfl

theorem frame_k : Cert.frame_Kernel := fun m ρ _ => Cert.Kernel.Gen.frame m ρ
theorem frame_ki : Cert.frame_KernelIdeal := fun m ρ _ => Cert.KernelIdeal.Gen.frame m ρ
theorem frame_ri : Cert.frame_ReferenceIdeal := fun m ρ _ =>
  (θ_run Cert.ReferenceIdeal.defs _ _).mono (fun _ h c => (h c).2) (Cert.ReferenceIdeal.Value.run (F := Ideal) m ρ)

/-- Both runs end with the result array at `finalScores` of the kernel's launch memory: the kernel's by the blocks
    tiling the array, the reference's because, the indices being in range, it reads the same rows. -/
theorem algebraic : Cert.algebraic_KernelIdeal_ReferenceIdeal := by
  intro m ρ m' ρ' hpre hagree
  refine ⟨fun c => Cert.KernelIdeal.Array.finalScores m c, ?_, ?_⟩
  · exact (θ_run Cert.KernelIdeal.defs _ _).mono
      (fun r h c => ⟨(h c).1.trans (Cert.KernelIdeal.Array.final m c), (h c).2⟩) (Cert.KernelIdeal.Value.run_blocks m ρ)
  · refine (θ_run Cert.ReferenceIdeal.defs _ _).mono (fun _ h c => ⟨(h c).1.trans ?_, (h c).2⟩)
      (Cert.ReferenceIdeal.Value.run (F := Ideal) m' ρ')
    obtain ⟨a0, a1, a2, a3, a4, a5, a6, a7, a8⟩ := hagree c
    obtain ⟨s0, s1, d0, d1⟩ := Cert.EdgeDecoder.range_of_pre _ _ _ _ _ _ _ _ _ (hpre c)
    rw [Cert.ReferenceIdeal.Read.val_main_v28_eq, Cert.ReferenceIdeal.Scores.result_eq, a0, a1, a2, a3, a4, a5, a6, a7, a8]
    show _ = Cert.KernelIdeal.Array.finalScores m c
    unfold Cert.KernelIdeal.Array.finalScores
    rw [Cert.KernelIdeal.HostPrefix.V_src_rows, Cert.KernelIdeal.HostPrefix.V_dst_rows,
      Cert.KernelIdeal.HostPrefix.clipped_eq _ s0 s1, Cert.KernelIdeal.HostPrefix.clipped_eq _ d0 d1,
      Cert.KernelIdeal.Gen.V_main_arg3, Cert.KernelIdeal.Gen.V_main_arg4, Cert.KernelIdeal.Gen.V_main_arg5,
      Cert.KernelIdeal.Gen.V_main_arg6, Cert.KernelIdeal.Gen.V_main_arg7, Cert.KernelIdeal.Gen.V_main_arg8,
      rows_src, rows_dst]

theorem claim : Cert.Claim := ⟨Cert.Kernel.Gen.facts, Cert.KernelIdeal.Gen.facts, Cert.ReferenceIdeal.Gen.facts, Cert.Pre_finite_inputs.Gen.facts,
  frame_k, frame_ki, frame_ri, trivial, algebraic⟩

end Cert.Proof

end
